-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024 : Shape := ⟨1, ![1024]⟩
abbrev S1024x32 : Shape := ⟨2, ![1024, 32]⟩
abbrev S1x32x1024 : Shape := ⟨3, ![1, 32, 1024]⟩
abbrev S2x32x1024 : Shape := ⟨3, ![2, 32, 1024]⟩
abbrev S3x32x1024 : Shape := ⟨3, ![3, 32, 1024]⟩
abbrev S32x32 : Shape := ⟨2, ![32, 32]⟩
abbrev S32x1024 : Shape := ⟨2, ![32, 1024]⟩
abbrev S32x32768 : Shape := ⟨2, ![32, 32768]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_
  bcast_S_S1x32x1024 : S_.BroadcastsInDim S1x32x1024 (![] : Fin 0 → Fin S1x32x1024.rank)
  reducesTo_S1x32x1024_S_d0_1_2 : S1x32x1024.ReducesTo [0, 1, 2] S_
  bcast_S_S2x32x1024 : S_.BroadcastsInDim S2x32x1024 (![] : Fin 0 → Fin S2x32x1024.rank)
  reducesTo_S2x32x1024_S_d0_1_2 : S2x32x1024.ReducesTo [0, 1, 2] S_
  bcast_S_S3x32x1024 : S_.BroadcastsInDim S3x32x1024 (![] : Fin 0 → Fin S3x32x1024.rank)
  reducesTo_S3x32x1024_S_d0_1_2 : S3x32x1024.ReducesTo [0, 1, 2] S_
  bcast_S_S32x32 : S_.BroadcastsInDim S32x32 (![] : Fin 0 → Fin S32x32.rank)
  reducesTo_S32x32_S_d0_1 : S32x32.ReducesTo [0, 1] S_
  bcast_S_S32x1024 : S_.BroadcastsInDim S32x1024 (![] : Fin 0 → Fin S32x1024.rank)
  reducesTo_S32x1024_S_d0_1 : S32x1024.ReducesTo [0, 1] S_
  bcast_S_S32x32768 : S_.BroadcastsInDim S32x32768 (![] : Fin 0 → Fin S32x32768.rank)
  reducesTo_S32x32768_S_d0_1 : S32x32768.ReducesTo [0, 1] S_

variable [Facts]

def fn_part3 {F : FTy → Type} [FloatOps F] (main_v48 : IVec S_ 1) (main_v49 : FVec F S32x32768 .f32) (main_v50 : FVec F S32x32768 .f32) : IVec S_ 1 :=
  let main_v51 : IVec S32x32768 1 := cmpf .olt main_v49 main_v50
  let main_c_19 : IVec S_ 1 := constantI S_ 1 1#1
  let main_v52 : IVec S_ 1 := (fun x v => Host.reduce IntOp.andi x v reducesTo_S32x32768_S_d0_1 h_S_) main_v51 main_c_19
  let main_v53 : IVec S_ 1 := andi main_v48 main_v52
  main_v53

def fn_part2 {F : FTy → Type} [FloatOps F] (main_arg7 : FVec F S3x32x1024 .f32) (main_arg8 : FVec F S32x32 .f32) (main_arg9 : FVec F S32x1024 .f32) (main_arg10 : FVec F S32x32768 .f32) (main_v33 : IVec S_ 1) : IVec S_ 1 :=
  let main_v34 : FVec F S3x32x1024 .f32 := Host.absf main_arg7
  let main_cst_12 : FVec F S_ .f32 := constant S_ .f32 0x7F800000#32
  let main_v35 : FVec F S3x32x1024 .f32 := broadcastInDim S3x32x1024 ![] bcast_S_S3x32x1024 main_cst_12
  let main_v36 : IVec S3x32x1024 1 := cmpf .olt main_v34 main_v35
  let main_c_13 : IVec S_ 1 := constantI S_ 1 1#1
  let main_v37 : IVec S_ 1 := (fun x v => Host.reduce IntOp.andi x v reducesTo_S3x32x1024_S_d0_1_2 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x1024 .f32 := Host.absf main_arg9
  let main_cst_16 : FVec F S_ .f32 := constant S_ .f32 0x7F800000#32
  let main_v45 : FVec F S32x1024 .f32 := broadcastInDim S32x1024 ![] bcast_S_S32x1024 main_cst_16
  let main_v46 : IVec S32x1024 1 := cmpf .olt main_v44 main_v45
  let main_c_17 : IVec S_ 1 := constantI S_ 1 1#1
  let main_v47 : IVec S_ 1 := (fun x v => Host.reduce IntOp.andi x v reducesTo_S32x1024_S_d0_1 h_S_) main_v46 main_c_17
  let main_v48 : IVec S_ 1 := andi main_v43 main_v47
  let main_v49 : FVec F S32x32768 .f32 := Host.absf main_arg10
  let main_cst_18 : FVec F S_ .f32 := constant S_ .f32 0x7F800000#32
  let main_v50 : FVec F S32x32768 .f32 := broadcastInDim S32x32768 ![] bcast_S_S32x32768 main_cst_18
  fn_part3 (F := F) main_v48 main_v49 main_v50

def fn_part1 {F : FTy → Type} [FloatOps F] (main_arg4 : FVec F S1024x32 .f32) (main_arg5 : FVec F S1x32x1024 .f32) (main_arg6 : FVec F S2x32x1024 .f32) (main_arg7 : FVec F S3x32x1024 .f32) (main_arg8 : FVec F S32x32 .f32) (main_arg9 : FVec F S32x1024 .f32) (main_arg10 : FVec F S32x32768 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S1024x32 .f32 := Host.absf main_arg4
  let main_cst_6 : FVec F S_ .f32 := constant S_ .f32 0x7F800000#32
  let main_v20 : FVec F S1024x32 .f32 := broadcastInDim S1024x32 ![] bcast_S_S1024x32 main_cst_6
  let main_v21 : IVec S1024x32 1 := cmpf .olt main_v19 main_v20
  let main_c_7 : IVec S_ 1 := constantI S_ 1 1#1
  let main_v22 : IVec S_ 1 := (fun x v => Host.reduce IntOp.andi x v reducesTo_S1024x32_S_d0_1 h_S_) main_v21 main_c_7
  let main_v23 : IVec S_ 1 := andi main_v18 main_v22
  let main_v24 : FVec F S1x32x1024 .f32 := Host.absf main_arg5
  let main_cst_8 : FVec F S_ .f32 := constant S_ .f32 0x7F800000#32
  let main_v25 : FVec F S1x32x1024 .f32 := broadcastInDim S1x32x1024 ![] bcast_S_S1x32x1024 main_cst_8
  let main_v26 : IVec S1x32x1024 1 := cmpf .olt main_v24 main_v25
  let main_c_9 : IVec S_ 1 := constantI S_ 1 1#1
  let main_v27 : IVec S_ 1 := (fun x v => Host.reduce IntOp.andi x v reducesTo_S1x32x1024_S_d0_1_2 h_S_) main_v26 main_c_9
  let main_v28 : IVec S_ 1 := andi main_v23 main_v27
  let main_v29 : FVec F S2x32x1024 .f32 := Host.absf main_arg6
  let main_cst_10 : FVec F S_ .f32 := constant S_ .f32 0x7F800000#32
  let main_v30 : FVec F S2x32x1024 .f32 := broadcastInDim S2x32x1024 ![] bcast_S_S2x32x1024 main_cst_10
  let main_v31 : IVec S2x32x1024 1 := cmpf .olt main_v29 main_v30
  let main_c_11 : IVec S_ 1 := constantI S_ 1 1#1
  let main_v32 : IVec S_ 1 := (fun x v => Host.reduce IntOp.andi x v reducesTo_S2x32x1024_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S1024 .f32) (main_arg2 : FVec F S1024x32 .f32) (main_arg3 : FVec F S1024x32 .f32) (main_arg4 : FVec F S1024x32 .f32) (main_arg5 : FVec F S1x32x1024 .f32) (main_arg6 : FVec F S2x32x1024 .f32) (main_arg7 : FVec F S3x32x1024 .f32) (main_arg8 : FVec F S32x32 .f32) (main_arg9 : FVec F S32x1024 .f32) (main_arg10 : FVec F S32x32768 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x32 .f32 := Host.absf main_arg2
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_c_3 : IVec S_ 1 := constantI S_ 1 1#1
  let main_v12 : IVec S_ 1 := (fun x v => Host.reduce IntOp.andi x v reducesTo_S1024x32_S_d0_1 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1024 : Shape := ⟨1, ![1024]⟩
abbrev S1024x32 : Shape := ⟨2, ![1024, 32]⟩
abbrev S1x32x1024 : Shape := ⟨3, ![1, 32, 1024]⟩
abbrev S2x32x1024 : Shape := ⟨3, ![2, 32, 1024]⟩
abbrev S3x32x1024 : Shape := ⟨3, ![3, 32, 1024]⟩
abbrev S32x32 : Shape := ⟨2, ![32, 32]⟩
abbrev S32x1024 : Shape := ⟨2, ![32, 1024]⟩
abbrev S32x32768 : Shape := ⟨2, ![32, 32768]⟩
abbrev S1x1024 : Shape := ⟨2, ![1, 1024]⟩
abbrev S1024x1024 : Shape := ⟨2, ![1024, 1024]⟩
abbrev S256x1024 : Shape := ⟨2, ![256, 1024]⟩
abbrev S256x32 : Shape := ⟨2, ![256, 32]⟩
abbrev S256x32x1 : Shape := ⟨3, ![256, 32, 1]⟩
abbrev S256x1x32 : Shape := ⟨3, ![256, 1, 32]⟩
abbrev S256x32x32 : Shape := ⟨3, ![256, 32, 32]⟩

abbrev nBuf : Space → Nat
  | .hbm => 25
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x32, .f32⟩
  | .hbm, ⟨3, _⟩ => ⟨S1024x32, .f32⟩
  | .hbm, ⟨4, _⟩ => ⟨S1024x32, .f32⟩
  | .hbm, ⟨5, _⟩ => ⟨S1x32x1024, .f32⟩
  | .hbm, ⟨6, _⟩ => ⟨S2x32x1024, .f32⟩
  | .hbm, ⟨7, _⟩ => ⟨S3x32x1024, .f32⟩
  | .hbm, ⟨8, _⟩ => ⟨S32x32, .f32⟩
  | .hbm, ⟨9, _⟩ => ⟨S32x1024, .f32⟩
  | .hbm, ⟨10, _⟩ => ⟨S32x32768, .f32⟩
  | .hbm, ⟨11, _⟩ => ⟨S1x1024, .f32⟩
  | .hbm, ⟨12, _⟩ => ⟨S32x1024, .f32⟩
  | .hbm, ⟨13, _⟩ => ⟨S1x32x1024, .f32⟩
  | .hbm, ⟨14, _⟩ => ⟨S32x1024, .f32⟩
  | .hbm, ⟨15, _⟩ => ⟨S1x32x1024, .f32⟩
  | .hbm, ⟨16, _⟩ => ⟨S32x1024, .f32⟩
  | .hbm, ⟨17, _⟩ => ⟨S1x32x1024, .f32⟩
  | .hbm, ⟨18, _⟩ => ⟨S32x1024, .f32⟩
  | .hbm, ⟨19, _⟩ => ⟨S1x32x1024, .f32⟩
  | .hbm, ⟨20, _⟩ => ⟨S32x1024, .f32⟩
  | .hbm, ⟨21, _⟩ => ⟨S1x32x1024, .f32⟩
  | .hbm, ⟨22, _⟩ => ⟨S32x1024, .f32⟩
  | .hbm, ⟨23, _⟩ => ⟨S1024x1024, .f32⟩
  | .hbm, ⟨24, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x32, .f32⟩
  | .local _ .vmem, ⟨13, _⟩ => ⟨S32x1024, .f32⟩
  | .local _ .vmem, ⟨14, _⟩ => ⟨S1024x1024, .f32⟩
  | .local _ .vmem, ⟨15, _⟩ => ⟨S256x1024, .f32⟩
  | .local _ .vmem, ⟨16, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S1024_S1x1024 : S1024.ShapeCasts S1x1024
  shapeCasts_S1x32x1024_S32x1024 : S1x32x1024.ShapeCasts S32x1024
  slices_S2x32x1024_S1x32x1024_0_0_0 : S2x32x1024.Slices ![0, 0, 0] S1x32x1024
  slices_S2x32x1024_S1x32x1024_1_0_0 : S2x32x1024.Slices ![1, 0, 0] S1x32x1024
  slices_S3x32x1024_S1x32x1024_0_0_0 : S3x32x1024.Slices ![0, 0, 0] S1x32x1024
  slices_S3x32x1024_S1x32x1024_1_0_0 : S3x32x1024.Slices ![1, 0, 0] S1x32x1024
  slices_S3x32x1024_S1x32x1024_2_0_0 : S3x32x1024.Slices ![2, 0, 0] S1x32x1024
  shapeCasts_S32x32768_S1024x1024 : S32x32768.ShapeCasts S1024x1024
  inb_S256x1024_S256x1024_0_0 : ∀ a, (![0, 0] : Fin 2 → Nat) a + S256x1024.size a ≤ S256x1024.size a
  h_S256x1024 : 0 < S256x1024.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S256x32_S256x32x1 : S256x32.ShapeCasts S256x32x1
  shapeCasts_S256x32_S256x1x32 : S256x32.ShapeCasts S256x1x32
  broadcasts_S256x32x1_S256x32x32 : S256x32x1.Broadcasts S256x32x32
  broadcasts_S256x1x32_S256x32x32 : S256x1x32.Broadcasts S256x32x32
  shapeCasts_S256x32x32_S256x1024 : S256x32x32.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x32x32 : S256x1024.ShapeCasts S256x32x32
  reduces_S256x32x32_S256x32 : S256x32x32.Reduces [2] S256x32
  inb_S1024x32_S1024x32_0_0 : ∀ a, (![0, 0] : Fin 2 → Nat) a + S1024x32.size a ≤ S1024x32.size a
  h_S1024x32 : 0 < S1024x32.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S32x1024_S256x32_1_1_0_0_n_n_wf : DotDims.WF S256x1024 S32x1024 S256x32 [1] [1] [0] [0] [] []
  dot_S256x32_S32x32_S256x32_1_1_0_0_n_n_wf : DotDims.WF S256x32 S32x32 S256x32 [1] [1] [0] [0] [] []
  dot_S256x1024_S1024x1024_S256x1024_1_1_0_0_n_n_wf : DotDims.WF S256x1024 S1024x1024 S256x1024 [1] [1] [0] [0] [] []
  dot_S256x32_S1024x32_S256x1024_1_1_0_0_n_n_wf : DotDims.WF S256x32 S1024x32 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S1024x32.size a
  hwx0_2 : ∀ i : grid0.Coords, EltTy.bits .f32 = 32 ∨ (Rect.block (s := S1024x32) S1024x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1024x32.size a
  hwx0_3 : ∀ i : grid0.Coords, EltTy.bits .f32 = 32 ∨ (Rect.block (s := S1024x32) S1024x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S1024x32.size a
  hwx0_4 : ∀ i : grid0.Coords, EltTy.bits .f32 = 32 ∨ (Rect.block (s := S1024x32) S1024x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .f32 = 32 ∨ (Rect.block (s := S32x1024) S32x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1024.size a ≤ S32x1024.size a
  hwx0_6 : ∀ i : grid0.Coords, EltTy.bits .f32 = 32 ∨ (Rect.block (s := S32x1024) S32x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1024.size a ≤ S32x1024.size a
  hwx0_7 : ∀ i : grid0.Coords, EltTy.bits .f32 = 32 ∨ (Rect.block (s := S32x1024) S32x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1024.size a ≤ S32x1024.size a
  hwx0_8 : ∀ i : grid0.Coords, EltTy.bits .f32 = 32 ∨ (Rect.block (s := S32x1024) S32x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1024.size a ≤ S32x1024.size a
  hwx0_9 : ∀ i : grid0.Coords, EltTy.bits .f32 = 32 ∨ (Rect.block (s := S32x1024) S32x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1024.size a ≤ S32x1024.size a
  hwx0_10 : ∀ i : grid0.Coords, EltTy.bits .f32 = 32 ∨ (Rect.block (s := S32x1024) S32x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x32.size a ≤ S32x32.size a
  hwx0_11 : ∀ i : grid0.Coords, EltTy.bits .f32 = 32 ∨ (Rect.block (s := S32x32) S32x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x1024.size a ≤ S32x1024.size a
  hwx0_12 : ∀ i : grid0.Coords, EltTy.bits .f32 = 32 ∨ (Rect.block (s := S32x1024) S32x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .f32 = 32 ∨ (Rect.block (s := S1024x1024) S1024x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1024.size a ≤ S4096x1024.size a
  hwx0_14 : ∀ i : grid0.Coords, EltTy.bits .f32 = 32 ∨ (Rect.block (s := S4096x1024) S256x1024.size (cc0_transform_14 i) (hinb0_14 i)).WholeWords (EltTy.packing .f32)

variable [Facts₀]

def dot_S256x1024_S32x1024_S256x32_1_1_0_0_n_n : DotDims S256x1024 S32x1024 S256x32 where
  lhsContracting := [1]
  rhsContracting := [1]
  lhsNonContracting := [0]
  rhsNonContracting := [0]
  lhsBatch := []
  rhsBatch := []
  wf := dot_S256x1024_S32x1024_S256x32_1_1_0_0_n_n_wf
def dot_S256x32_S32x32_S256x32_1_1_0_0_n_n : DotDims S256x32 S32x32 S256x32 where
  lhsContracting := [1]
  rhsContracting := [1]
  lhsNonContracting := [0]
  rhsNonContracting := [0]
  lhsBatch := []
  rhsBatch := []
  wf := dot_S256x32_S32x32_S256x32_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x32_S1024x32_S256x1024_1_1_0_0_n_n : DotDims S256x32 S1024x32 S256x1024 where
  lhsContracting := [1]
  rhsContracting := [1]
  lhsNonContracting := [0]
  rhsNonContracting := [0]
  lhsBatch := []
  rhsBatch := []
  wf := dot_S256x32_S1024x32_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S32x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S32x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S32x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S32x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S32x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S32x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S32x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S32x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S256x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024 : Shape := ⟨1, ![1024]⟩
abbrev S1024x32 : Shape := ⟨2, ![1024, 32]⟩
abbrev S1x32x1024 : Shape := ⟨3, ![1, 32, 1024]⟩
abbrev S2x32x1024 : Shape := ⟨3, ![2, 32, 1024]⟩
abbrev S3x32x1024 : Shape := ⟨3, ![3, 32, 1024]⟩
abbrev S32x32 : Shape := ⟨2, ![32, 32]⟩
abbrev S32x1024 : Shape := ⟨2, ![32, 1024]⟩
abbrev S32x32768 : Shape := ⟨2, ![32, 32768]⟩
abbrev S1x1024 : Shape := ⟨2, ![1, 1024]⟩
abbrev S1x32x4096 : Shape := ⟨3, ![1, 32, 4096]⟩
abbrev S32x4096 : Shape := ⟨2, ![32, 4096]⟩
abbrev S1024x4096 : Shape := ⟨2, ![1024, 4096]⟩
abbrev S2x32x4096 : Shape := ⟨3, ![2, 32, 4096]⟩
abbrev S32x1x4096 : Shape := ⟨3, ![32, 1, 4096]⟩
abbrev S32x32x4096 : Shape := ⟨3, ![32, 32, 4096]⟩
abbrev S3x32x4096 : Shape := ⟨3, ![3, 32, 4096]⟩
abbrev S32x1x1x4096 : Shape := ⟨4, ![32, 1, 1, 4096]⟩
abbrev S1x32x32x4096 : Shape := ⟨4, ![1, 32, 32, 4096]⟩
abbrev S32x32x32x4096 : Shape := ⟨4, ![32, 32, 32, 4096]⟩
abbrev S32768x4096 : Shape := ⟨2, ![32768, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x32, .f32⟩
  | .hbm, ⟨3, _⟩ => ⟨S1024x32, .f32⟩
  | .hbm, ⟨4, _⟩ => ⟨S1024x32, .f32⟩
  | .hbm, ⟨5, _⟩ => ⟨S1x32x1024, .f32⟩
  | .hbm, ⟨6, _⟩ => ⟨S2x32x1024, .f32⟩
  | .hbm, ⟨7, _⟩ => ⟨S3x32x1024, .f32⟩
  | .hbm, ⟨8, _⟩ => ⟨S32x32, .f32⟩
  | .hbm, ⟨9, _⟩ => ⟨S32x1024, .f32⟩
  | .hbm, ⟨10, _⟩ => ⟨S32x32768, .f32⟩
  | .hbm, ⟨11, _⟩ => ⟨S1x1024, .f32⟩
  | .hbm, ⟨12, _⟩ => ⟨S4096x1024, .f32⟩
  | .hbm, ⟨13, _⟩ => ⟨S1x32x4096, .f32⟩
  | .hbm, ⟨14, _⟩ => ⟨S32x4096, .f32⟩
  | .hbm, ⟨15, _⟩ => ⟨S32x4096, .f32⟩
  | .hbm, ⟨16, _⟩ => ⟨S1024x4096, .f32⟩
  | .hbm, ⟨17, _⟩ => ⟨S4096x1024, .f32⟩
  | .hbm, ⟨18, _⟩ => ⟨S4096x1024, .f32⟩
  | .hbm, ⟨19, _⟩ => ⟨S2x32x4096, .f32⟩
  | .hbm, ⟨20, _⟩ => ⟨S1x32x4096, .f32⟩
  | .hbm, ⟨21, _⟩ => ⟨S32x4096, .f32⟩
  | .hbm, ⟨22, _⟩ => ⟨S1x32x4096, .f32⟩
  | .hbm, ⟨23, _⟩ => ⟨S32x4096, .f32⟩
  | .hbm, ⟨24, _⟩ => ⟨S32x1x4096, .f32⟩
  | .hbm, ⟨25, _⟩ => ⟨S1x32x4096, .f32⟩
  | .hbm, ⟨26, _⟩ => ⟨S32x32x4096, .f32⟩
  | .hbm, ⟨27, _⟩ => ⟨S32x32x4096, .f32⟩
  | .hbm, ⟨28, _⟩ => ⟨S32x32x4096, .f32⟩
  | .hbm, ⟨29, _⟩ => ⟨S1024x4096, .f32⟩
  | .hbm, ⟨30, _⟩ => ⟨S32x4096, .f32⟩
  | .hbm, ⟨31, _⟩ => ⟨S1024x4096, .f32⟩
  | .hbm, ⟨32, _⟩ => ⟨S4096x1024, .f32⟩
  | .hbm, ⟨33, _⟩ => ⟨S4096x1024, .f32⟩
  | .hbm, ⟨34, _⟩ => ⟨S3x32x4096, .f32⟩
  | .hbm, ⟨35, _⟩ => ⟨S1x32x4096, .f32⟩
  | .hbm, ⟨36, _⟩ => ⟨S32x4096, .f32⟩
  | .hbm, ⟨37, _⟩ => ⟨S1x32x4096, .f32⟩
  | .hbm, ⟨38, _⟩ => ⟨S32x4096, .f32⟩
  | .hbm, ⟨39, _⟩ => ⟨S32x1x4096, .f32⟩
  | .hbm, ⟨40, _⟩ => ⟨S1x32x4096, .f32⟩
  | .hbm, ⟨41, _⟩ => ⟨S32x32x4096, .f32⟩
  | .hbm, ⟨42, _⟩ => ⟨S32x32x4096, .f32⟩
  | .hbm, ⟨43, _⟩ => ⟨S32x32x4096, .f32⟩
  | .hbm, ⟨44, _⟩ => ⟨S1x32x4096, .f32⟩
  | .hbm, ⟨45, _⟩ => ⟨S32x4096, .f32⟩
  | .hbm, ⟨46, _⟩ => ⟨S32x1x1x4096, .f32⟩
  | .hbm, ⟨47, _⟩ => ⟨S1x32x32x4096, .f32⟩
  | .hbm, ⟨48, _⟩ => ⟨S32x32x32x4096, .f32⟩
  | .hbm, ⟨49, _⟩ => ⟨S32x32x32x4096, .f32⟩
  | .hbm, ⟨50, _⟩ => ⟨S32x32x32x4096, .f32⟩
  | .hbm, ⟨51, _⟩ => ⟨S32768x4096, .f32⟩
  | .hbm, ⟨52, _⟩ => ⟨S32x4096, .f32⟩
  | .hbm, ⟨53, _⟩ => ⟨S1024x4096, .f32⟩
  | .hbm, ⟨54, _⟩ => ⟨S4096x1024, .f32⟩
  | .hbm, ⟨55, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S1x32x4096_S32x4096 : S1x32x4096.ShapeCasts S32x4096
  transposes_S1024x4096_S4096x1024_1_0 : S1024x4096.Transposes [1, 0] S4096x1024
  slices_S2x32x4096_S1x32x4096_0_0_0 : S2x32x4096.Slices ![0, 0, 0] S1x32x4096
  slices_S2x32x4096_S1x32x4096_1_0_0 : S2x32x4096.Slices ![1, 0, 0] S1x32x4096
  shapeCasts_S32x4096_S32x1x4096 : S32x4096.ShapeCasts S32x1x4096
  bcast_S32x4096_S1x32x4096_1_2 : S32x4096.BroadcastsInDim S1x32x4096 (![1, 2] : Fin 2 → Fin S1x32x4096.rank)
  bcast_S1x32x4096_S32x32x4096_0_1_2 : S1x32x4096.BroadcastsInDim S32x32x4096 (![0, 1, 2] : Fin 3 → Fin S32x32x4096.rank)
  bcast_S32x1x4096_S32x32x4096_0_1_2 : S32x1x4096.BroadcastsInDim S32x32x4096 (![0, 1, 2] : Fin 3 → Fin S32x32x4096.rank)
  shapeCasts_S32x32x4096_S1024x4096 : S32x32x4096.ShapeCasts S1024x4096
  slices_S3x32x4096_S1x32x4096_0_0_0 : S3x32x4096.Slices ![0, 0, 0] S1x32x4096
  slices_S3x32x4096_S1x32x4096_1_0_0 : S3x32x4096.Slices ![1, 0, 0] S1x32x4096
  slices_S3x32x4096_S1x32x4096_2_0_0 : S3x32x4096.Slices ![2, 0, 0] S1x32x4096
  shapeCasts_S32x4096_S32x1x1x4096 : S32x4096.ShapeCasts S32x1x1x4096
  bcast_S32x32x4096_S1x32x32x4096_1_2_3 : S32x32x4096.BroadcastsInDim S1x32x32x4096 (![1, 2, 3] : Fin 3 → Fin S1x32x32x4096.rank)
  bcast_S1x32x32x4096_S32x32x32x4096_0_1_2_3 : S1x32x32x4096.BroadcastsInDim S32x32x32x4096 (![0, 1, 2, 3] : Fin 4 → Fin S32x32x32x4096.rank)
  bcast_S32x1x1x4096_S32x32x32x4096_0_1_2_3 : S32x1x1x4096.BroadcastsInDim S32x32x32x4096 (![0, 1, 2, 3] : Fin 4 → Fin S32x32x32x4096.rank)
  shapeCasts_S32x32x32x4096_S32768x4096 : S32x32x32x4096.ShapeCasts S32768x4096
  dot_S1x32x1024_S4096x1024_S1x32x4096_2_1_01_0_n_n_wf : DotDims.WF S1x32x1024 S4096x1024 S1x32x4096 [2] [1] [0, 1] [0] [] []
  dot_S32x32_S32x4096_S32x4096_1_0_0_1_n_n_wf : DotDims.WF S32x32 S32x4096 S32x4096 [1] [0] [0] [1] [] []
  dot_S1024x32_S32x4096_S1024x4096_1_0_0_1_n_n_wf : DotDims.WF S1024x32 S32x4096 S1024x4096 [1] [0] [0] [1] [] []
  dot_S2x32x1024_S4096x1024_S2x32x4096_2_1_01_0_n_n_wf : DotDims.WF S2x32x1024 S4096x1024 S2x32x4096 [2] [1] [0, 1] [0] [] []
  dot_S32x1024_S1024x4096_S32x4096_1_0_0_1_n_n_wf : DotDims.WF S32x1024 S1024x4096 S32x4096 [1] [0] [0] [1] [] []
  dot_S3x32x1024_S4096x1024_S3x32x4096_2_1_01_0_n_n_wf : DotDims.WF S3x32x1024 S4096x1024 S3x32x4096 [2] [1] [0, 1] [0] [] []
  dot_S32x32768_S32768x4096_S32x4096_1_0_0_1_n_n_wf : DotDims.WF S32x32768 S32768x4096 S32x4096 [1] [0] [0] [1] [] []

variable [Facts₀]

def dot_S1x32x1024_S4096x1024_S1x32x4096_2_1_01_0_n_n : DotDims S1x32x1024 S4096x1024 S1x32x4096 where
  lhsContracting := [2]
  rhsContracting := [1]
  lhsNonContracting := [0, 1]
  rhsNonContracting := [0]
  lhsBatch := []
  rhsBatch := []
  wf := dot_S1x32x1024_S4096x1024_S1x32x4096_2_1_01_0_n_n_wf
def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf
def dot_S1024x32_S32x4096_S1024x4096_1_0_0_1_n_n : DotDims S1024x32 S32x4096 S1024x4096 where
  lhsContracting := [1]
  rhsContracting := [0]
  lhsNonContracting := [0]
  rhsNonContracting := [1]
  lhsBatch := []
  rhsBatch := []
  wf := dot_S1024x32_S32x4096_S1024x4096_1_0_0_1_n_n_wf
def dot_S2x32x1024_S4096x1024_S2x32x4096_2_1_01_0_n_n : DotDims S2x32x1024 S4096x1024 S2x32x4096 where
  lhsContracting := [2]
  rhsContracting := [1]
  lhsNonContracting := [0, 1]
  rhsNonContracting := [0]
  lhsBatch := []
  rhsBatch := []
  wf := dot_S2x32x1024_S4096x1024_S2x32x4096_2_1_01_0_n_n_wf
def dot_S32x1024_S1024x4096_S32x4096_1_0_0_1_n_n : DotDims S32x1024 S1024x4096 S32x4096 where
  lhsContracting := [1]
  rhsContracting := [0]
  lhsNonContracting := [0]
  rhsNonContracting := [1]
  lhsBatch := []
  rhsBatch := []
  wf := dot_S32x1024_S1024x4096_S32x4096_1_0_0_1_n_n_wf
def dot_S3x32x1024_S4096x1024_S3x32x4096_2_1_01_0_n_n : DotDims S3x32x1024 S4096x1024 S3x32x4096 where
  lhsContracting := [2]
  rhsContracting := [1]
  lhsNonContracting := [0, 1]
  rhsNonContracting := [0]
  lhsBatch := []
  rhsBatch := []
  wf := dot_S3x32x1024_S4096x1024_S3x32x4096_2_1_01_0_n_n_wf
def dot_S32x32768_S32768x4096_S32x4096_1_0_0_1_n_n : DotDims S32x32768 S32768x4096 S32x4096 where
  lhsContracting := [1]
  rhsContracting := [0]
  lhsNonContracting := [0]
  rhsNonContracting := [1]
  lhsBatch := []
  rhsBatch := []
  wf := dot_S32x32768_S32768x4096_S32x4096_1_0_0_1_n_n_wf

class Facts : Prop extends Facts₀ where

variable [Facts]
-- ==== Proof.TuckerSpec.lean ====
/-
  The Tucker–Taylor layer, one output row at a time, as two arrangements of the same sums.

  For one row `x` of the input (1024 entries) and the factors of the three orders, both programs compute,
  at output column `o`,
      c o + Σ_r O0 o r · T0 r + Σ_r O1 o r · T1 r + Σ_r O2 o r · T2 r
  where, with `z A a = Σ_i x i · A a i` the projection of the row on a factor matrix `A`,
      T0 r = Σ_a G0 r a · z I0 a,
      T1 r = Σ_{a1 a0} G1 r (a1·32 + a0) · z I10 a0 · z I11 a1,
      T2 r = Σ_{a2 a1 a0} G2 r (a2·1024 + a1·32 + a0) · z I20 a0 · z I21 a1 · z I22 a2.
  `kerRow` is the arrangement that contracts order 2 mode by mode (first over the pair (a1, a0) against the
  core reshaped to 1024 × 1024, then over a2), with every product written "activation · weight";
  `refRow` is the arrangement that forms the whole Kronecker product of 32768 entries and contracts it in
  one sum, with every product written "weight · activation".
-/
import Idealize.ShloMosaic.PureOps.Ideal

noncomputable section

open scoped BigOperators

namespace Cert.Tucker

/-- The high digit of a position in a flattened 32 × 32 pair. -/
def hi (k : Fin 1024) : Fin 32 := ⟨k.val / 32, by have := k.isLt; omega⟩
/-- The low digit of a position in a flattened 32 × 32 pair. -/
def lo (k : Fin 1024) : Fin 32 := ⟨k.val % 32, by omega⟩
/-- The position `r·32 + a` of the pair (r, a). -/
def pair (r a : Fin 32) : Fin 1024 := ⟨r.val * 32 + a.val, by have := r.isLt; have := a.isLt; omega⟩
/-- The three digits of a position in a flattened 32 × 32 × 32 triple, lowest first. -/
def lo3 (K : Fin 32768) : Fin 32 := ⟨K.val % 32, by omega⟩
def mid3 (K : Fin 32768) : Fin 32 := ⟨K.val / 32 % 32, by omega⟩
def hi3 (K : Fin 32768) : Fin 32 := ⟨K.val / 1024, by have := K.isLt; omega⟩
/-- The position `a2·1024 + k` of a second-order pair position `k` under the third digit `a2`. -/
def triple (a2 : Fin 32) (k : Fin 1024) : Fin 32768 := ⟨a2.val * 1024 + k.val, by have := a2.isLt; have := k.isLt; omega⟩

variable (x c : Fin 1024 → EReal) (O0 O1 O2 : Fin 1024 → Fin 32 → EReal)
  (I0 I10 I11 I20 I21 I22 : Fin 32 → Fin 1024 → EReal) (G0 : Fin 32 → Fin 32 → EReal) (G1 : Fin 32 → Fin 1024 → EReal)

/-- The mode-by-mode arrangement, products written activation · weight; `G2f` is the order-2 core as a
    1024 × 1024 matrix, row `r·32 + a2`, column `a1·32 + a0`. -/
def kerRow (G2f : Fin 1024 → Fin 1024 → EReal) (o : Fin 1024) : EReal :=
  ((c o + ∑ r : Fin 32, (∑ a : Fin 32, (∑ i : Fin 1024, x i * I0 a i) * G0 r a) * O0 o r)
    + ∑ r : Fin 32, (∑ k : Fin 1024, ((∑ i : Fin 1024, x i * I11 (hi k) i) * (∑ i : Fin 1024, x i * I10 (lo k) i)) * G1 r k) * O1 o r)
    + ∑ r : Fin 32, (∑ a2 : Fin 32, (∑ k : Fin 1024, ((∑ i : Fin 1024, x i * I21 (hi k) i) * (∑ i : Fin 1024, x i * I20 (lo k) i))
          * G2f (pair r a2) k) * (∑ i : Fin 1024, x i * I22 a2 i)) * O2 o r

/-- The whole-Kronecker arrangement, products written weight · activation; `G2` is the order-2 core as a
    32 × 32768 matrix. -/
def refRow (G2 : Fin 32 → Fin 32768 → EReal) (o : Fin 1024) : EReal :=
  ((c o + ∑ r : Fin 32, O0 o r * ∑ a : Fin 32, G0 r a * ∑ i : Fin 1024, I0 a i * x i)
    + ∑ r : Fin 32, O1 o r * ∑ k : Fin 1024, G1 r k * ((∑ i : Fin 1024, I10 (lo k) i * x i) * (∑ i : Fin 1024, I11 (hi k) i * x i)))
    + ∑ r : Fin 32, O2 o r * ∑ K : Fin 32768, G2 r K
        * (((∑ i : Fin 1024, I20 (lo3 K) i * x i) * (∑ i : Fin 1024, I21 (mid3 K) i * x i)) * (∑ i : Fin 1024, I22 (hi3 K) i * x i))

end Cert.Tucker

end
-- ==== Proof.KernelOps.lean ====
/-
  The kernel body's vector operations read at one element, at the exact (extended-real) instance:
  the four matrix products of its payloads as plain sums over the contracted coordinate, the reshapes
  between a row of 1024 entries and a 32 × 32 square as the digits of the position, the two keep-dims
  broadcasts that form an outer product, the lane sum, and the row broadcast of the bias.
-/
import proofs.«179672_j26113401160148_1_alg».proof.Proof.Gen.KernelIdeal
import proofs.«179672_j26113401160148_1_alg».proof.Proof.TuckerSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Ops

open Cert.KernelIdeal Cert.KernelIdeal.Gen Idealize.ShloMosaic Idealize.ShloMosaic.ValueIdx Cert.Tucker

variable {φ₁ φ₂ : FTy}

/-! ## The four matrix products (both operands contracted along their second axis, zero accumulator) -/

private theorem lhs_proj_0 (i : S256x32.Idx) (q : dot_S256x1024_S32x1024_S256x32_1_1_0_0_n_n.contr.Idx) :
    (dot_S256x1024_S32x1024_S256x32_1_1_0_0_n_n.lhsIdx i q 0).val = (i 0).val := by
  unfold DotDims.lhsIdx
  rw [dif_neg (show ¬(0 : Fin S256x1024.rank) ∈ dot_S256x1024_S32x1024_S256x32_1_1_0_0_n_n.lhsBatch by decide), dif_pos (show (0 : Fin S256x1024.rank) ∈ dot_S256x1024_S32x1024_S256x32_1_1_0_0_n_n.lhsNonContracting by decide)]
  rfl
private theorem lhs_proj_1 (i : S256x32.Idx) (q : dot_S256x1024_S32x1024_S256x32_1_1_0_0_n_n.contr.Idx) :
    (dot_S256x1024_S32x1024_S256x32_1_1_0_0_n_n.lhsIdx i q 1).val = (q ⟨0, by decide⟩).val :=
  dot_S256x1024_S32x1024_S256x32_1_1_0_0_n_n.lhsIdx_val_of_single rfl i q
private theorem rhs_proj_0 (i : S256x32.Idx) (q : dot_S256x1024_S32x1024_S256x32_1_1_0_0_n_n.contr.Idx) :
    (dot_S256x1024_S32x1024_S256x32_1_1_0_0_n_n.rhsIdx i q 0).val = (i 1).val := by
  unfold DotDims.rhsIdx
  rw [dif_neg (show ¬(0 : Fin S32x1024.rank) ∈ dot_S256x1024_S32x1024_S256x32_1_1_0_0_n_n.rhsBatch by decide), dif_pos (show (0 : Fin S32x1024.rank) ∈ dot_S256x1024_S32x1024_S256x32_1_1_0_0_n_n.rhsNonContracting by decide)]
  rfl
private theorem rhs_proj_1 (i : S256x32.Idx) (q : dot_S256x1024_S32x1024_S256x32_1_1_0_0_n_n.contr.Idx) :
    (dot_S256x1024_S32x1024_S256x32_1_1_0_0_n_n.rhsIdx i q 1).val = (q ⟨0, by decide⟩).val :=
  dot_S256x1024_S32x1024_S256x32_1_1_0_0_n_n.rhsIdx_val_of_single rfl i q

/-- A 256 × 1024 block times the transpose of a 32 × 1024 factor. -/
theorem matmul_proj (a : FVec Ideal S256x1024 φ₁) (b : FVec Ideal S32x1024 φ₂) (p : Fin 256) (q : Fin 32) :
    matmul dot_S256x1024_S32x1024_S256x32_1_1_0_0_n_n none a b (constant S256x32 .f32 0x00000000#32) (ix2 p q)
      = ∑ k : Fin 1024, a (ix2 p k) * b (ix2 q k) := by
  simp only [matmul]
  rw [Ideal.matmul_constant_zero_apply, ← Equiv.sum_comp (ValueIdx.contrEquiv1 dot_S256x1024_S32x1024_S256x32_1_1_0_0_n_n 1024 rfl rfl).symm]
  refine Finset.sum_congr rfl fun k _ => ?_
  have hk := ValueIdx.contrEquiv1_symm_val dot_S256x1024_S32x1024_S256x32_1_1_0_0_n_n 1024 rfl rfl k
  have el : dot_S256x1024_S32x1024_S256x32_1_1_0_0_n_n.lhsIdx (ix2 p q) ((ValueIdx.contrEquiv1 dot_S256x1024_S32x1024_S256x32_1_1_0_0_n_n 1024 rfl rfl).symm k) = ix2 p k := funext fun d => Fin.ext (by
    match d with
    | ⟨0, _⟩ => exact lhs_proj_0 _ _
    | ⟨1, _⟩ => exact (lhs_proj_1 _ _).trans hk)
  have er : dot_S256x1024_S32x1024_S256x32_1_1_0_0_n_n.rhsIdx (ix2 p q) ((ValueIdx.contrEquiv1 dot_S256x1024_S32x1024_S256x32_1_1_0_0_n_n 1024 rfl rfl).symm k) = ix2 q k := funext fun d => Fin.ext (by
    match d with
    | ⟨0, _⟩ => exact rhs_proj_0 _ _
    | ⟨1, _⟩ => exact (rhs_proj_1 _ _).trans hk)
  rw [el, er]

private theorem lhs_core0_0 (i : S256x32.Idx) (q : dot_S256x32_S32x32_S256x32_1_1_0_0_n_n.contr.Idx) :
    (dot_S256x32_S32x32_S256x32_1_1_0_0_n_n.lhsIdx i q 0).val = (i 0).val := by
  unfold DotDims.lhsIdx
  rw [dif_neg (show ¬(0 : Fin S256x32.rank) ∈ dot_S256x32_S32x32_S256x32_1_1_0_0_n_n.lhsBatch by decide), dif_pos (show (0 : Fin S256x32.rank) ∈ dot_S256x32_S32x32_S256x32_1_1_0_0_n_n.lhsNonContracting by decide)]
  rfl
private theorem lhs_core0_1 (i : S256x32.Idx) (q : dot_S256x32_S32x32_S256x32_1_1_0_0_n_n.contr.Idx) :
    (dot_S256x32_S32x32_S256x32_1_1_0_0_n_n.lhsIdx i q 1).val = (q ⟨0, by decide⟩).val :=
  dot_S256x32_S32x32_S256x32_1_1_0_0_n_n.lhsIdx_val_of_single rfl i q
private theorem rhs_core0_0 (i : S256x32.Idx) (q : dot_S256x32_S32x32_S256x32_1_1_0_0_n_n.contr.Idx) :
    (dot_S256x32_S32x32_S256x32_1_1_0_0_n_n.rhsIdx i q 0).val = (i 1).val := by
  unfold DotDims.rhsIdx
  rw [dif_neg (show ¬(0 : Fin S32x32.rank) ∈ dot_S256x32_S32x32_S256x32_1_1_0_0_n_n.rhsBatch by decide), dif_pos (show (0 : Fin S32x32.rank) ∈ dot_S256x32_S32x32_S256x32_1_1_0_0_n_n.rhsNonContracting by decide)]
  rfl
private theorem rhs_core0_1 (i : S256x32.Idx) (q : dot_S256x32_S32x32_S256x32_1_1_0_0_n_n.contr.Idx) :
    (dot_S256x32_S32x32_S256x32_1_1_0_0_n_n.rhsIdx i q 1).val = (q ⟨0, by decide⟩).val :=
  dot_S256x32_S32x32_S256x32_1_1_0_0_n_n.rhsIdx_val_of_single rfl i q

/-- A 256 × 32 block times the transpose of a 32 × 32 core. -/
theorem matmul_core0 (a : FVec Ideal S256x32 φ₁) (b : FVec Ideal S32x32 φ₂) (p : Fin 256) (q : Fin 32) :
    matmul dot_S256x32_S32x32_S256x32_1_1_0_0_n_n none a b (constant S256x32 .f32 0x00000000#32) (ix2 p q)
      = ∑ k : Fin 32, a (ix2 p k) * b (ix2 q k) := by
  simp only [matmul]
  rw [Ideal.matmul_constant_zero_apply, ← Equiv.sum_comp (ValueIdx.contrEquiv1 dot_S256x32_S32x32_S256x32_1_1_0_0_n_n 32 rfl rfl).symm]
  refine Finset.sum_congr rfl fun k _ => ?_
  have hk := ValueIdx.contrEquiv1_symm_val dot_S256x32_S32x32_S256x32_1_1_0_0_n_n 32 rfl rfl k
  have el : dot_S256x32_S32x32_S256x32_1_1_0_0_n_n.lhsIdx (ix2 p q) ((ValueIdx.contrEquiv1 dot_S256x32_S32x32_S256x32_1_1_0_0_n_n 32 rfl rfl).symm k) = ix2 p k := funext fun d => Fin.ext (by
    match d with
    | ⟨0, _⟩ => exact lhs_core0_0 _ _
    | ⟨1, _⟩ => exact (lhs_core0_1 _ _).trans hk)
  have er : dot_S256x32_S32x32_S256x32_1_1_0_0_n_n.rhsIdx (ix2 p q) ((ValueIdx.contrEquiv1 dot_S256x32_S32x32_S256x32_1_1_0_0_n_n 32 rfl rfl).symm k) = ix2 q k := funext fun d => Fin.ext (by
    match d with
    | ⟨0, _⟩ => exact rhs_core0_0 _ _
    | ⟨1, _⟩ => exact (rhs_core0_1 _ _).trans hk)
  rw [el, er]

private theorem lhs_core2_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
private theorem lhs_core2_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
private theorem rhs_core2_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
private theorem rhs_core2_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- A 256 × 1024 block times the transpose of the 1024 × 1024 core. -/
theorem matmul_core2 (a : FVec Ideal S256x1024 φ₁) (b : FVec Ideal S1024x1024 φ₂) (p : Fin 256) (q : Fin 1024) :
    matmul dot_S256x1024_S1024x1024_S256x1024_1_1_0_0_n_n none a b (constant S256x1024 .f32 0x00000000#32) (ix2 p q)
      = ∑ k : Fin 1024, a (ix2 p k) * b (ix2 q k) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 p q) ((ValueIdx.contrEquiv1 dot_S256x1024_S1024x1024_S256x1024_1_1_0_0_n_n 1024 rfl rfl).symm k) = ix2 p k := funext fun d => Fin.ext (by
    match d with
    | ⟨0, _⟩ => exact lhs_core2_0 _ _
    | ⟨1, _⟩ => exact (lhs_core2_1 _ _).trans hk)
  have er : dot_S256x1024_S1024x1024_S256x1024_1_1_0_0_n_n.rhsIdx (ix2 p q) ((ValueIdx.contrEquiv1 dot_S256x1024_S1024x1024_S256x1024_1_1_0_0_n_n 1024 rfl rfl).symm k) = ix2 q k := funext fun d => Fin.ext (by
    match d with
    | ⟨0, _⟩ => exact rhs_core2_0 _ _
    | ⟨1, _⟩ => exact (rhs_core2_1 _ _).trans hk)
  rw [el, er]

private theorem lhs_out_0 (i : S256x1024.Idx) (q : dot_S256x32_S1024x32_S256x1024_1_1_0_0_n_n.contr.Idx) :
    (dot_S256x32_S1024x32_S256x1024_1_1_0_0_n_n.lhsIdx i q 0).val = (i 0).val := by
  unfold DotDims.lhsIdx
  rw [dif_neg (show ¬(0 : Fin S256x32.rank) ∈ dot_S256x32_S1024x32_S256x1024_1_1_0_0_n_n.lhsBatch by decide), dif_pos (show (0 : Fin S256x32.rank) ∈ dot_S256x32_S1024x32_S256x1024_1_1_0_0_n_n.lhsNonContracting by decide)]
  rfl
private theorem lhs_out_1 (i : S256x1024.Idx) (q : dot_S256x32_S1024x32_S256x1024_1_1_0_0_n_n.contr.Idx) :
    (dot_S256x32_S1024x32_S256x1024_1_1_0_0_n_n.lhsIdx i q 1).val = (q ⟨0, by decide⟩).val :=
  dot_S256x32_S1024x32_S256x1024_1_1_0_0_n_n.lhsIdx_val_of_single rfl i q
private theorem rhs_out_0 (i : S256x1024.Idx) (q : dot_S256x32_S1024x32_S256x1024_1_1_0_0_n_n.contr.Idx) :
    (dot_S256x32_S1024x32_S256x1024_1_1_0_0_n_n.rhsIdx i q 0).val = (i 1).val := by
  unfold DotDims.rhsIdx
  rw [dif_neg (show ¬(0 : Fin S1024x32.rank) ∈ dot_S256x32_S1024x32_S256x1024_1_1_0_0_n_n.rhsBatch by decide), dif_pos (show (0 : Fin S1024x32.rank) ∈ dot_S256x32_S1024x32_S256x1024_1_1_0_0_n_n.rhsNonContracting by decide)]
  rfl
private theorem rhs_out_1 (i : S256x1024.Idx) (q : dot_S256x32_S1024x32_S256x1024_1_1_0_0_n_n.contr.Idx) :
    (dot_S256x32_S1024x32_S256x1024_1_1_0_0_n_n.rhsIdx i q 1).val = (q ⟨0, by decide⟩).val :=
  dot_S256x32_S1024x32_S256x1024_1_1_0_0_n_n.rhsIdx_val_of_single rfl i q

/-- A 256 × 32 block times the transpose of a 1024 × 32 output factor. -/
theorem matmul_out (a : FVec Ideal S256x32 φ₁) (b : FVec Ideal S1024x32 φ₂) (p : Fin 256) (q : Fin 1024) :
    matmul dot_S256x32_S1024x32_S256x1024_1_1_0_0_n_n none a b (constant S256x1024 .f32 0x00000000#32) (ix2 p q)
      = ∑ k : Fin 32, a (ix2 p k) * b (ix2 q k) := by
  simp only [matmul]
  rw [Ideal.matmul_constant_zero_apply, ← Equiv.sum_comp (ValueIdx.contrEquiv1 dot_S256x32_S1024x32_S256x1024_1_1_0_0_n_n 32 rfl rfl).symm]
  refine Finset.sum_congr rfl fun k _ => ?_
  have hk := ValueIdx.contrEquiv1_symm_val dot_S256x32_S1024x32_S256x1024_1_1_0_0_n_n 32 rfl rfl k
  have el : dot_S256x32_S1024x32_S256x1024_1_1_0_0_n_n.lhsIdx (ix2 p q) ((ValueIdx.contrEquiv1 dot_S256x32_S1024x32_S256x1024_1_1_0_0_n_n 32 rfl rfl).symm k) = ix2 p k := funext fun d => Fin.ext (by
    match d with
    | ⟨0, _⟩ => exact lhs_out_0 _ _
    | ⟨1, _⟩ => exact (lhs_out_1 _ _).trans hk)
  have er : dot_S256x32_S1024x32_S256x1024_1_1_0_0_n_n.rhsIdx (ix2 p q) ((ValueIdx.contrEquiv1 dot_S256x32_S1024x32_S256x1024_1_1_0_0_n_n 32 rfl rfl).symm k) = ix2 q k := funext fun d => Fin.ext (by
    match d with
    | ⟨0, _⟩ => exact rhs_out_0 _ _
    | ⟨1, _⟩ => exact (rhs_out_1 _ _).trans hk)
  rw [el, er]

/-! ## Layout operations -/

variable {α : Type}

/-- [256, 32] → [256, 32, 1]: a trailing unit axis. -/
theorem cast_col (v : S256x32.Idx → α) (h : S256x32.ShapeCasts S256x32x1) (p : Fin 256) (a : Fin 32) :
    shapeCast S256x32x1 v h (ix3 p a (0 : Fin 1)) = v (ix2 p a) :=
  shapeCast_apply v h _ _ (by
    rw [Shape.rowMajor_val_three, Shape.rowMajor_val_two]
    show p.val * 32 + a.val = (p.val * 32 + a.val) * 1 + 0
    omega)

/-- [256, 32] → [256, 1, 32]: a middle unit axis. -/
theorem cast_row (v : S256x32.Idx → α) (h : S256x32.ShapeCasts S256x1x32) (p : Fin 256) (a : Fin 32) :
    shapeCast S256x1x32 v h (ix3 p (0 : Fin 1) a) = v (ix2 p a) :=
  shapeCast_apply v h _ _ (by
    rw [Shape.rowMajor_val_three, Shape.rowMajor_val_two]
    show p.val * 32 + a.val = (p.val * 1 + 0) * 32 + a.val
    omega)

/-- [256, 32, 1] → [256, 32, 32]: the column repeated along the last axis. -/
theorem bcast_col (v : S256x32x1.Idx → α) (h : S256x32x1.Broadcasts S256x32x32) (p : Fin 256) (a b : Fin 32) :
    broadcastTo S256x32x32 v h (ix3 p a b) = v (ix3 p a (0 : Fin 1)) :=
  broadcastTo_apply v h (ix3 p a b) (ix3 p a (0 : Fin 1)) fun d => match d with
    | ⟨0, _⟩ => by show p.val = if (256 : Nat) = 1 then 0 else p.val; rw [if_neg (by decide)]
    | ⟨1, _⟩ => by show a.val = if (32 : Nat) = 1 then 0 else a.val; rw [if_neg (by decide)]
    | ⟨2, _⟩ => by show (0 : Nat) = if (1 : Nat) = 1 then 0 else b.val; rw [if_pos rfl]

/-- [256, 1, 32] → [256, 32, 32]: the row repeated along the middle axis. -/
theorem bcast_row (v : S256x1x32.Idx → α) (h : S256x1x32.Broadcasts S256x32x32) (p : Fin 256) (a b : Fin 32) :
    broadcastTo S256x32x32 v h (ix3 p a b) = v (ix3 p (0 : Fin 1) b) :=
  broadcastTo_apply v h (ix3 p a b) (ix3 p (0 : Fin 1) b) fun d => match d with
    | ⟨0, _⟩ => by show p.val = if (256 : Nat) = 1 then 0 else p.val; rw [if_neg (by decide)]
    | ⟨1, _⟩ => by show (0 : Nat) = if (1 : Nat) = 1 then 0 else a.val; rw [if_pos rfl]
    | ⟨2, _⟩ => by show b.val = if (32 : Nat) = 1 then 0 else b.val; rw [if_neg (by decide)]

/-- [256, 32, 32] → [256, 1024]: position `k` of a row is the pair of its digits. -/
theorem flatten_sq (v : S256x32x32.Idx → α) (h : S256x32x32.ShapeCasts S256x1024) (p : Fin 256) (k : Fin 1024) :
    shapeCast S256x1024 v h (ix2 p k) = v (ix3 p (hi k) (lo k)) :=
  shapeCast_apply v h _ _ (by
    rw [Shape.rowMajor_val_three, Shape.rowMajor_val_two]
    show (p.val * 32 + k.val / 32) * 32 + k.val % 32 = p.val * 1024 + k.val
    omega)

/-- [256, 1024] → [256, 32, 32]: the pair (r, a) is position `r·32 + a` of the row. -/
theorem unflatten_sq (v : S256x1024.Idx → α) (h : S256x1024.ShapeCasts S256x32x32) (p : Fin 256) (r a : Fin 32) :
    shapeCast S256x32x32 v h (ix3 p r a) = v (ix2 p (pair r a)) :=
  shapeCast_apply v h _ _ (by
    rw [Shape.rowMajor_val_three, Shape.rowMajor_val_two]
    show p.val * 1024 + (r.val * 32 + a.val) = (p.val * 32 + r.val) * 32 + a.val
    omega)

/-- The sum over the last axis of a [256, 32, 32] vector. -/
theorem lane_sum (v : FVec Ideal S256x32x32 .f32) (h : S256x32x32.Reduces [2] S256x32) (hφ : FKind.Formats .f32)
    (hacc : (0x00000000#32 : BitVec 32) = FKind.add.neutral .f32 hφ) (p : Fin 256) (r : Fin 32) :
    multiReduction .add [2] S256x32 v 0x00000000#32 h hφ hacc (ix2 p r) = ∑ a : Fin 32, v (ix3 p r a) := by
  refine (Ideal.multiReduction_add_single v _ h hφ hacc _).trans (Finset.sum_congr rfl fun a _ => congrArg v (funext fun d => Fin.ext ?_))
  match d with
  | ⟨0, _⟩ => rfl
  | ⟨1, _⟩ => rfl
  | ⟨2, _⟩ => rfl

/-- [1, 1024] → [256, 1024]: the bias row repeated down the block. -/
theorem bcast_bias (v : S1x1024.Idx → α) (h : S1x1024.Broadcasts S256x1024) (p : Fin 256) (q : Fin 1024) :
    broadcastTo S256x1024 v h (ix2 p q) = v (ix2 (0 : Fin 1) q) :=
  broadcastTo_1b_ab_apply v h p q

end Cert.KernelIdeal.Ops

end
-- ==== Proof.PayProj.lean ====
/-
  The six projections of the kernel body read at one element: the block of input rows against each
  factor matrix (five payloads), and the order-0 chain, a projection followed by the 32 × 32 core.
-/
import proofs.«179672_j26113401160148_1_alg».proof.Proof.Gen.KernelIdeal.Skeleton
import proofs.«179672_j26113401160148_1_alg».proof.Proof.KernelOps

noncomputable section

open scoped BigOperators

namespace Cert.KernelIdeal.Pay

open Cert.KernelIdeal Cert.KernelIdeal.Gen Idealize.ShloMosaic Idealize.ShloMosaic.ValueIdx Cert.Tucker

/-- The projection common to all six payloads: the block and a factor, both narrowed, contracted along
their rows; the narrowing and the cast to the same shape are identities on ideal values. -/
private theorem proj_apply (v0 : Vec Ideal S256x1024 .f32) (w : Vec Ideal S32x1024 .f32) (p : Fin 256) (a : Fin 32) :
    (matmul dot_S256x1024_S32x1024_S256x32_1_1_0_0_n_n none
        (truncf .bf16 (v0 : FVec Ideal S256x1024 .f32) bitsLt_bf16_f32 : FVec Ideal S256x1024 .bf16)
        (truncf .bf16 (shapeCast S32x1024 (w : FVec Ideal S32x1024 .f32) shapeCasts_S32x1024_S32x1024 : FVec Ideal S32x1024 .f32)
          bitsLt_bf16_f32 : FVec Ideal S32x1024 .bf16)
        (constant S256x32 .f32 0x00000000#32) : FVec Ideal S256x32 .f32) (ix2 p a)
      = ∑ i : Fin 1024, v0 (ix2 p i) * w (ix2 a i) := by
  refine (Ops.matmul_proj _ _ p a).trans ?_
  refine Finset.sum_congr rfl fun i _ => ?_
  rw [shapeCast_self]
  rfl

/-- A row of the block against the rows of a factor: `z[p, a] = Σ_i x[p, i] · A[a, i]`. -/
theorem pay2_apply (v0 : Vec Ideal S256x1024 .f32) (v6 : Vec Ideal S32x1024 .f32) (p : Fin 256) (a : Fin 32) :
    k0_pay2 (F := Ideal) v0 v6 (ix2 p a) = ∑ i : Fin 1024, v0 (ix2 p i) * v6 (ix2 a i) := by
  unfold k0_pay2
  exact proj_apply v0 v6 p a

theorem pay3_apply (v0 : Vec Ideal S256x1024 .f32) (v16 : Vec Ideal S32x1024 .f32) (p : Fin 256) (a : Fin 32) :
    k0_pay3 (F := Ideal) v0 v16 (ix2 p a) = ∑ i : Fin 1024, v0 (ix2 p i) * v16 (ix2 a i) := by
  unfold k0_pay3
  exact proj_apply v0 v16 p a

theorem pay4_apply (v0 : Vec Ideal S256x1024 .f32) (v21 : Vec Ideal S32x1024 .f32) (p : Fin 256) (a : Fin 32) :
    k0_pay4 (F := Ideal) v0 v21 (ix2 p a) = ∑ i : Fin 1024, v0 (ix2 p i) * v21 (ix2 a i) := by
  unfold k0_pay4
  exact proj_apply v0 v21 p a

theorem pay5_apply (v0 : Vec Ideal S256x1024 .f32) (v26 : Vec Ideal S32x1024 .f32) (p : Fin 256) (a : Fin 32) :
    k0_pay5 (F := Ideal) v0 v26 (ix2 p a) = ∑ i : Fin 1024, v0 (ix2 p i) * v26 (ix2 a i) := by
  unfold k0_pay5
  exact proj_apply v0 v26 p a

/-- The same projection, kept as a column [256, 32, 1]. -/
theorem pay7_apply (v0 : Vec Ideal S256x1024 .f32) (v11 : Vec Ideal S32x1024 .f32) (p : Fin 256) (a : Fin 32) :
    k0_pay7 (F := Ideal) v0 v11 (ix3 p a (0 : Fin 1)) = ∑ i : Fin 1024, v0 (ix2 p i) * v11 (ix2 a i) := by
  unfold k0_pay7
  refine (Ops.cast_col _ _ p a).trans ?_
  exact proj_apply v0 v11 p a

/-- Order 0: the projection on the first factor, then the 32 × 32 core. -/
theorem pay6_apply (v0 : Vec Ideal S256x1024 .f32) (v1 : Vec Ideal S32x1024 .f32) (v31 : Vec Ideal S32x32 .f32) (p : Fin 256) (r : Fin 32) :
    k0_pay6 (F := Ideal) v0 v1 v31 (ix2 p r)
      = ∑ a : Fin 32, (∑ i : Fin 1024, v0 (ix2 p i) * v1 (ix2 a i)) * v31 (ix2 r a) := by
  unfold k0_pay6
  refine (Ops.matmul_core0 _ _ p r).trans ?_
  refine Finset.sum_congr rfl fun a _ => ?_
  refine congrArg₂ (· * ·) ?_ rfl
  exact proj_apply v0 v1 p a

end Cert.KernelIdeal.Pay

end
-- ==== Proof.PayLow.lean ====
/-
  The bias plus the order-0 and order-1 terms of the kernel body read at one element, as a function of
  the projections it is given: the order-1 term contracts the outer product of two projections, laid out
  as a row of 1024 entries, against the 32 × 1024 core, then against the output factor.
-/
import proofs.«179672_j26113401160148_1_alg».proof.Proof.Gen.KernelIdeal.Skeleton
import proofs.«179672_j26113401160148_1_alg».proof.Proof.KernelOps

noncomputable section

open scoped BigOperators

namespace Cert.KernelIdeal.Pay

open Cert.KernelIdeal Cert.KernelIdeal.Gen Idealize.ShloMosaic Idealize.ShloMosaic.ValueIdx Cert.Tucker

theorem pay9_apply (v10 v34 : FVec Ideal S256x32 .f32) (v35 : FVec Ideal S256x32x1 .f32) (v41 : Vec Ideal S32x1024 .f32)
    (v61 v65 : Vec Ideal S1024x32 .f32) (v73 : Vec Ideal S1x1024 .f32) (p : Fin 256) (q : Fin 1024) :
    k0_pay9 (F := Ideal) v10 v34 v35 v41 v61 v65 v73 (ix2 p q)
      = (v73 (ix2 (0 : Fin 1) q) + ∑ r : Fin 32, v34 (ix2 p r) * v61 (ix2 q r))
        + ∑ r : Fin 32, (∑ k : Fin 1024, (v35 (ix3 p (hi k) (0 : Fin 1)) * v10 (ix2 p (lo k))) * v41 (ix2 r k)) * v65 (ix2 q r) := by
  unfold k0_pay9
  refine (addf_apply _ _ _).trans ?_
  refine congrArg₂ (· + ·) ((addf_apply _ _ _).trans (congrArg₂ (· + ·) ?_ ?_)) ?_
  · -- the bias row, cast to its own shape, repeated down the block
    refine (Ops.bcast_bias _ _ p q).trans ?_
    rw [shapeCast_self]
  · -- order 0: the given chain against the output factor
    refine (Ops.matmul_out _ _ p q).trans ?_
    rfl
  · -- order 1: outer product, flattened, against the core, then against the output factor
    refine (Ops.matmul_out _ _ p q).trans ?_
    refine Finset.sum_congr rfl fun r _ => ?_
    refine congrArg₂ (· * ·) ?_ rfl
    refine (Ops.matmul_proj _ _ p r).trans ?_
    refine Finset.sum_congr rfl fun k _ => ?_
    refine congrArg₂ (· * ·) ?_ rfl
    refine (truncf_apply (φ := .f32) (ψ := .bf16) _ bitsLt_bf16_f32 (ix2 p k)).trans ?_
    refine (Ops.flatten_sq _ _ p k).trans ?_
    refine (mulf_apply _ _ _).trans ?_
    refine congrArg₂ (· * ·) ?_ ?_
    · exact Ops.bcast_col _ _ p (hi k) (lo k)
    · exact (Ops.bcast_row _ _ p (hi k) (lo k)).trans (Ops.cast_row _ _ p (lo k))

end Cert.KernelIdeal.Pay

end
-- ==== Proof.PayHigh.lean ====
/-
  The order-2 term of the kernel body read at one element, as a function of the three projections it is
  given: the outer product of two of them against the 1024 × 1024 core, the result read as a 32 × 32
  square, weighted by the third projection and summed over its last axis, then the output factor.
-/
import proofs.«179672_j26113401160148_1_alg».proof.Proof.Gen.KernelIdeal.Skeleton
import proofs.«179672_j26113401160148_1_alg».proof.Proof.KernelOps

noncomputable section

open scoped BigOperators

namespace Cert.KernelIdeal.Pay

open Cert.KernelIdeal Cert.KernelIdeal.Gen Idealize.ShloMosaic Idealize.ShloMosaic.ValueIdx Cert.Tucker

theorem pay8_apply (v20 v25 v30 : FVec Ideal S256x32 .f32) (v51 : Vec Ideal S1024x1024 .f32) (v69 : Vec Ideal S1024x32 .f32)
    (p : Fin 256) (q : Fin 1024) :
    k0_pay8 (F := Ideal) v20 v25 v30 v51 v69 (ix2 p q)
      = ∑ r : Fin 32, (∑ a2 : Fin 32, (∑ k : Fin 1024, (v25 (ix2 p (hi k)) * v20 (ix2 p (lo k))) * v51 (ix2 (pair r a2) k))
          * v30 (ix2 p a2)) * v69 (ix2 q r) := by
  unfold k0_pay8
  refine (Ops.matmul_out _ _ p q).trans ?_
  refine Finset.sum_congr rfl fun r _ => ?_
  refine congrArg₂ (· * ·) ?_ rfl
  refine (truncf_apply (ψ := .bf16) _ bitsLt_bf16_f32 (ix2 p r)).trans ?_
  refine (Ops.lane_sum _ _ _ _ p r).trans ?_
  refine Finset.sum_congr rfl fun a2 _ => ?_
  refine congrArg₂ (· * ·) ?_ ?_
  · refine (Ops.unflatten_sq _ _ p r a2).trans ?_
    refine (Ops.matmul_core2 _ _ p (pair r a2)).trans ?_
    refine Finset.sum_congr rfl fun k _ => ?_
    refine congrArg₂ (· * ·) ?_ ?_
    · refine (truncf_apply (ψ := .bf16) _ bitsLt_bf16_f32 (ix2 p k)).trans ?_
      refine (Ops.flatten_sq _ _ p k).trans ?_
      refine congrArg₂ (· * ·) ?_ ?_
      · exact (Ops.bcast_col _ _ p (hi k) (lo k)).trans (Ops.cast_col _ _ p (hi k))
      · exact (Ops.bcast_row _ _ p (hi k) (lo k)).trans (Ops.cast_row _ _ p (lo k))
    · refine (truncf_apply (ψ := .bf16) _ bitsLt_bf16_f32 (ix2 (pair r a2) k)).trans ?_
      exact congrFun (shapeCast_self v51 _) (ix2 (pair r a2) k)
  · exact (Ops.bcast_row _ _ p r a2).trans (Ops.cast_row _ _ p a2)

end Cert.KernelIdeal.Pay

end
-- ==== Proof.KernelBlock.lean ====
/-
  One block of output rows: what the kernel body leaves in its output buffer, read at row p and column q,
  is the mode-by-mode arrangement `kerRow` of row p of its input block and of the resident factor blocks.
  The body's single store writes the whole 256 × 1024 buffer, so the buffer is the stored value; that value
  is the sum of the bias-plus-orders-0-and-1 payload and the order-2 payload, each over the projections of
  the block on the factor matrices.
-/
import proofs.«179672_j26113401160148_1_alg».proof.Proof.Gen.KernelIdeal.Frame
import proofs.«179672_j26113401160148_1_alg».proof.Proof.PayProj
import proofs.«179672_j26113401160148_1_alg».proof.Proof.PayLow
import proofs.«179672_j26113401160148_1_alg».proof.Proof.PayHigh

noncomputable section

open scoped BigOperators

namespace Cert.KernelIdeal.Block

open Cert.KernelIdeal Cert.KernelIdeal.Gen Idealize.ShloMosaic Idealize.ShloMosaic.ValueIdx Cert.Tucker

theorem hz : (![0, 0] : Fin 2 → Nat) = fun _ => 0 := funext fun a => by fin_cases a <;> rfl

variable {F : FTy → Type} [FloatOps F]

/-- The one store covers the buffer: the buffer after the body is the stored value, over the loaded blocks. -/
theorem out_eq (x0 : Vec F S256x1024 .f32) (x1 : Vec F S1x1024 .f32) (x2 x3 x4 : Vec F S1024x32 .f32)
    (x5 x6 x7 x8 x9 x10 : Vec F S32x1024 .f32) (x11 : Vec F S32x32 .f32) (x12 : Vec F S32x1024 .f32) (x13 : Vec F S1024x1024 .f32) :
    out0_14 x0 x1 x2 x3 x4 x5 x6 x7 x8 x9 x10 x11 x12 x13
      = k0_pay1 (k0_pay8 (k0_pay3 x0 x8) (k0_pay4 x0 x9) (k0_pay5 x0 x10) x13 x4)
          (k0_pay9 (k0_pay2 x0 x6) (k0_pay6 x0 x5 x11) (k0_pay7 x0 x7) x12 x2 x3 x1) := by
  unfold out0_14
  rw [View.canon_unit_zero hz]
  simp only [View.ld_unit_zero (S := S256x1024) hz, View.ld_unit_zero (S := S32x1024) hz, View.ld_unit_zero (S := S32x32) hz,
    View.ld_unit_zero (S := S1024x1024) hz, View.ld_unit_zero (S := S1024x32) hz, View.ld_unit_zero (S := S1x1024) hz]

/-- The block's entry (p, q) is `kerRow` of row p of the input block and the factor blocks. -/
theorem out_apply (x0 : Vec Ideal S256x1024 .f32) (x1 : Vec Ideal S1x1024 .f32) (x2 x3 x4 : Vec Ideal S1024x32 .f32)
    (x5 x6 x7 x8 x9 x10 : Vec Ideal S32x1024 .f32) (x11 : Vec Ideal S32x32 .f32) (x12 : Vec Ideal S32x1024 .f32)
    (x13 : Vec Ideal S1024x1024 .f32) (p : Fin 256) (q : Fin 1024) :
    out0_14 (F := Ideal) x0 x1 x2 x3 x4 x5 x6 x7 x8 x9 x10 x11 x12 x13 (ix2 p q)
      = kerRow (fun i => x0 (ix2 p i)) (fun o => x1 (ix2 (0 : Fin 1) o))
          (fun o r => x2 (ix2 o r)) (fun o r => x3 (ix2 o r)) (fun o r => x4 (ix2 o r))
          (fun a i => x5 (ix2 a i)) (fun a i => x6 (ix2 a i)) (fun a i => x7 (ix2 a i))
          (fun a i => x8 (ix2 a i)) (fun a i => x9 (ix2 a i)) (fun a i => x10 (ix2 a i))
          (fun r a => x11 (ix2 r a)) (fun r k => x12 (ix2 r k)) (fun j k => x13 (ix2 j k)) q := by
  rw [out_eq]
  show (k0_pay9 (F := Ideal) (k0_pay2 x0 x6) (k0_pay6 x0 x5 x11) (k0_pay7 x0 x7) x12 x2 x3 x1) (ix2 p q)
      + (k0_pay8 (F := Ideal) (k0_pay3 x0 x8) (k0_pay4 x0 x9) (k0_pay5 x0 x10) x13 x4) (ix2 p q) = _
  rw [Pay.pay9_apply, Pay.pay8_apply]
  simp only [Pay.pay2_apply, Pay.pay3_apply, Pay.pay4_apply, Pay.pay5_apply, Pay.pay6_apply, Pay.pay7_apply]
  rfl

end Cert.KernelIdeal.Block

end
-- ==== Proof.KernelArray.lean ====
/-
  The kernel's result array as one function of the argument arrays.

  The program reshapes the bias to a row, takes each mode of the stacked input factors as a 32 × 1024 matrix,
  and reshapes the order-2 core to 1024 × 1024; then a grid of sixteen points each maps a block of 256 input
  rows, with every factor resident whole, to the block of 256 output rows. Written here: those reshapes and
  slices read at an element; each window's block at a point read off its array (the row blocks at rows
  256·t + p, the factor windows at their own coordinates); that what a point writes back is its block of
  `arrG`, row by row the mode-by-mode arrangement `kerRow`; that the sixteen row blocks cover the array;
  hence the array after the run and the run with its result named.
-/
import proofs.«179672_j26113401160148_1_alg».proof.Proof.Gen.KernelIdeal.Value
import proofs.«179672_j26113401160148_1_alg».proof.Proof.KernelBlock
import Idealize.ShloMosaic.Lib.StableHlo.Run

set_option maxRecDepth 16384

noncomputable section

open scoped BigOperators

namespace Cert.KernelIdeal.Arr

open Cert.KernelIdeal Cert.KernelIdeal.Gen Idealize.ShloMosaic Idealize.ShloMosaic.TcCoe Idealize.SL.Sem Idealize.ShloMosaic.ValueIdx Cert.Tucker Idealize.ShloMosaic.StableHlo
open Idealize.ShloMosaic.Pipeline (Dat)

/-! ## The whole output array as one function of the argument arrays -/

/-- Entry (b, o) of the result: `kerRow` of row b of the input and of the factor arrays as the program is given
    them (the stacked input factors read at their leading coordinate, the order-2 core read through its
    1024 × 1024 reshape: row j = r·32 + a2, column k is column a2·1024 + k of row r). -/
def rowG (A0 : S4096x1024.Idx → EReal) (A1 : S1024.Idx → EReal) (A2 A3 A4 : S1024x32.Idx → EReal)
    (A5 : S1x32x1024.Idx → EReal) (A6 : S2x32x1024.Idx → EReal) (A7 : S3x32x1024.Idx → EReal)
    (A8 : S32x32.Idx → EReal) (A9 : S32x1024.Idx → EReal) (A10 : S32x32768.Idx → EReal) (b : Fin 4096) (o : Fin 1024) : EReal :=
  kerRow (fun i => A0 (ix2 b i)) (fun q => A1 (ix1 q))
    (fun q r => A2 (ix2 q r)) (fun q r => A3 (ix2 q r)) (fun q r => A4 (ix2 q r))
    (fun a i => A5 (ix3 (0 : Fin 1) a i))
    (fun a i => A6 (ix3 (0 : Fin 2) a i)) (fun a i => A6 (ix3 (1 : Fin 2) a i))
    (fun a i => A7 (ix3 (0 : Fin 3) a i)) (fun a i => A7 (ix3 (1 : Fin 3) a i)) (fun a i => A7 (ix3 (2 : Fin 3) a i))
    (fun r a => A8 (ix2 r a)) (fun r k => A9 (ix2 r k)) (fun j k => A10 (ix2 (hi j) (triple (lo j) k))) o

/-- The result array: `rowG` at the index's two coordinates. -/
def arrG (A0 : S4096x1024.Idx → EReal) (A1 : S1024.Idx → EReal) (A2 A3 A4 : S1024x32.Idx → EReal)
    (A5 : S1x32x1024.Idx → EReal) (A6 : S2x32x1024.Idx → EReal) (A7 : S3x32x1024.Idx → EReal)
    (A8 : S32x32.Idx → EReal) (A9 : S32x1024.Idx → EReal) (A10 : S32x32768.Idx → EReal) : S4096x1024.Idx → EReal :=
  fun i => rowG A0 A1 A2 A3 A4 A5 A6 A7 A8 A9 A10 ⟨(i 0).val, idx2_lt0 i⟩ ⟨(i 1).val, idx2_lt1 i⟩

variable (m : (ℓ : Loc nD τ sig) → Buf (Elt Ideal) ℓ) (ρ : Dev nD → PrngReg)

/-- The argument arrays as launched, on core c. -/
abbrev a0 (c : Dev nD) : S4096x1024.Idx → EReal := m ((c : Thread nD τ).loc main_arg0)
abbrev a1 (c : Dev nD) : S1024.Idx → EReal := m ((c : Thread nD τ).loc main_arg1)
abbrev a2 (c : Dev nD) : S1024x32.Idx → EReal := m ((c : Thread nD τ).loc main_arg2)
abbrev a3 (c : Dev nD) : S1024x32.Idx → EReal := m ((c : Thread nD τ).loc main_arg3)
abbrev a4 (c : Dev nD) : S1024x32.Idx → EReal := m ((c : Thread nD τ).loc main_arg4)
abbrev a5 (c : Dev nD) : S1x32x1024.Idx → EReal := m ((c : Thread nD τ).loc main_arg5)
abbrev a6 (c : Dev nD) : S2x32x1024.Idx → EReal := m ((c : Thread nD τ).loc main_arg6)
abbrev a7 (c : Dev nD) : S3x32x1024.Idx → EReal := m ((c : Thread nD τ).loc main_arg7)
abbrev a8 (c : Dev nD) : S32x32.Idx → EReal := m ((c : Thread nD τ).loc main_arg8)
abbrev a9 (c : Dev nD) : S32x1024.Idx → EReal := m ((c : Thread nD τ).loc main_arg9)
abbrev a10 (c : Dev nD) : S32x32768.Idx → EReal := m ((c : Thread nD τ).loc main_arg10)

/-! ## The arrays the host operations before the region write, read at an index -/

/-- The bias as a 1 × 1024 row. -/
theorem V_v0_apply (c : Dev nD) (q : Fin 1024) :
    (V m c main_v0 : S1x1024.Idx → EReal) (ix2 (0 : Fin 1) q) = a1 m c (ix1 q) := by
  have e : (V m c main_v0 : S1x1024.Idx → EReal) = shapeCast S1x1024 (a1 m c) shapeCasts_S1024_S1x1024 := by
    dsimp only [V, hostOps0]; after_results; rfl
  rw [e]
  exact shapeCast_apply _ _ _ _ (by
    rw [Shape.rowMajor_val_one, Shape.rowMajor_val_two]; show q.val = 0 * 1024 + q.val; omega)

/-- The one input factor of order 0 without its leading unit axis. -/
theorem V_v1_apply (c : Dev nD) (a : Fin 32) (i : Fin 1024) :
    (V m c main_v1 : S32x1024.Idx → EReal) (ix2 a i) = a5 m c (ix3 (0 : Fin 1) a i) := by
  have e : (V m c main_v1 : S32x1024.Idx → EReal) = shapeCast S32x1024 (a5 m c) shapeCasts_S1x32x1024_S32x1024 := by
    dsimp only [V, hostOps0]; after_results; rfl
  rw [e]
  exact shapeCast_apply _ _ _ _ (by
    rw [Shape.rowMajor_val_three, Shape.rowMajor_val_two]; show (0 * 32 + a.val) * 1024 + i.val = a.val * 1024 + i.val; omega)

/-- A slice of one mode of a stacked input factor, without its leading unit axis, is that mode. -/
theorem slice_mode {n : Nat} (A : (⟨3, ![n, 32, 1024]⟩ : Shape).Idx → EReal) (j : Fin n)
    (hs : (⟨3, ![n, 32, 1024]⟩ : Shape).Slices ![j.val, 0, 0] S1x32x1024) (hc : S1x32x1024.ShapeCasts S32x1024)
    (a : Fin 32) (i : Fin 1024) :
    shapeCast S32x1024 (extractStridedSlice S1x32x1024 ![j.val, 0, 0] A hs) hc (ix2 a i) = A (ix3 j a i) := by
  refine (shapeCast_apply _ hc (ix2 a i) (ix3 (0 : Fin 1) a i) (by
    rw [Shape.rowMajor_val_three, Shape.rowMajor_val_two]; show (0 * 32 + a.val) * 1024 + i.val = a.val * 1024 + i.val; omega)).trans ?_
  exact extractStridedSlice_apply _ A hs (ix3 (0 : Fin 1) a i) (ix3 j a i) (fun d => by
    match d with
    | ⟨0, _⟩ => show j.val = j.val + 0; omega
    | ⟨1, _⟩ => show a.val = 0 + a.val; omega
    | ⟨2, _⟩ => show i.val = 0 + i.val; omega)

/-- Mode 0 of the order-1 input factors. -/
theorem V_v3_apply (c : Dev nD) (a : Fin 32) (i : Fin 1024) :
    (V m c main_v3 : S32x1024.Idx → EReal) (ix2 a i) = a6 m c (ix3 (0 : Fin 2) a i) := by
  have e : (V m c main_v3 : S32x1024.Idx → EReal) = shapeCast S32x1024 (extractStridedSlice S1x32x1024 ![0, 0, 0] (a6 m c)
      slices_S2x32x1024_S1x32x1024_0_0_0) shapeCasts_S1x32x1024_S32x1024 := by
    dsimp only [V, hostOps0]; after_results; rfl
  rw [e]
  exact slice_mode (a6 m c) (0 : Fin 2) slices_S2x32x1024_S1x32x1024_0_0_0 _ a i

/-- Mode 1 of the order-1 input factors. -/
theorem V_v5_apply (c : Dev nD) (a : Fin 32) (i : Fin 1024) :
    (V m c main_v5 : S32x1024.Idx → EReal) (ix2 a i) = a6 m c (ix3 (1 : Fin 2) a i) := by
  have e : (V m c main_v5 : S32x1024.Idx → EReal) = shapeCast S32x1024 (extractStridedSlice S1x32x1024 ![1, 0, 0] (a6 m c)
      slices_S2x32x1024_S1x32x1024_1_0_0) shapeCasts_S1x32x1024_S32x1024 := by
    dsimp only [V, hostOps0]; after_results; rfl
  rw [e]
  exact slice_mode (a6 m c) (1 : Fin 2) slices_S2x32x1024_S1x32x1024_1_0_0 _ a i

/-- Modes 0, 1, 2 of the order-2 input factors. -/
theorem V_v7_apply (c : Dev nD) (a : Fin 32) (i : Fin 1024) :
    (V m c main_v7 : S32x1024.Idx → EReal) (ix2 a i) = a7 m c (ix3 (0 : Fin 3) a i) := by
  have e : (V m c main_v7 : S32x1024.Idx → EReal) = shapeCast S32x1024 (extractStridedSlice S1x32x1024 ![0, 0, 0] (a7 m c)
      slices_S3x32x1024_S1x32x1024_0_0_0) shapeCasts_S1x32x1024_S32x1024 := by
    dsimp only [V, hostOps0]; after_results; rfl
  rw [e]
  exact slice_mode (a7 m c) (0 : Fin 3) slices_S3x32x1024_S1x32x1024_0_0_0 _ a i

theorem V_v9_apply (c : Dev nD) (a : Fin 32) (i : Fin 1024) :
    (V m c main_v9 : S32x1024.Idx → EReal) (ix2 a i) = a7 m c (ix3 (1 : Fin 3) a i) := by
  have e : (V m c main_v9 : S32x1024.Idx → EReal) = shapeCast S32x1024 (extractStridedSlice S1x32x1024 ![1, 0, 0] (a7 m c)
      slices_S3x32x1024_S1x32x1024_1_0_0) shapeCasts_S1x32x1024_S32x1024 := by
    dsimp only [V, hostOps0]; after_results; rfl
  rw [e]
  exact slice_mode (a7 m c) (1 : Fin 3) slices_S3x32x1024_S1x32x1024_1_0_0 _ a i

theorem V_v11_apply (c : Dev nD) (a : Fin 32) (i : Fin 1024) :
    (V m c main_v11 : S32x1024.Idx → EReal) (ix2 a i) = a7 m c (ix3 (2 : Fin 3) a i) := by
  have e : (V m c main_v11 : S32x1024.Idx → EReal) = shapeCast S32x1024 (extractStridedSlice S1x32x1024 ![2, 0, 0] (a7 m c)
      slices_S3x32x1024_S1x32x1024_2_0_0) shapeCasts_S1x32x1024_S32x1024 := by
    dsimp only [V, hostOps0]; after_results; rfl
  rw [e]
  exact slice_mode (a7 m c) (2 : Fin 3) slices_S3x32x1024_S1x32x1024_2_0_0 _ a i

/-- The order-2 core as a 1024 × 1024 matrix: row j, column k is position (j mod 32)·1024 + k of row j / 32. -/
theorem V_v12_apply (c : Dev nD) (j k : Fin 1024) :
    (V m c main_v12 : S1024x1024.Idx → EReal) (ix2 j k) = a10 m c (ix2 (hi j) (triple (lo j) k)) := by
  have e : (V m c main_v12 : S1024x1024.Idx → EReal) = shapeCast S1024x1024 (a10 m c) shapeCasts_S32x32768_S1024x1024 := by
    dsimp only [V, hostOps0]; after_results; rfl
  rw [e]
  exact shapeCast_apply _ _ _ _ (by
    rw [Shape.rowMajor_val_two, Shape.rowMajor_val_two]
    show (j.val / 32) * 32768 + ((j.val % 32) * 1024 + k.val) = j.val * 1024 + k.val
    have := j.isLt; have := k.isLt; omega)

/-! ## Where each window's block sits -/

/-- The input rows and the output rows move with the grid point; the second axis is whole. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
/-- Every factor window is its whole array at every point. -/
theorem idx_res : ∀ t : Fin cfg0.N,
    (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0)
    ∧ (win0_9.index t (0 : Fin 2) = 0 ∧ win0_9.index t (1 : Fin 2) = 0) ∧ (win0_10.index t (0 : Fin 2) = 0 ∧ win0_10.index t (1 : Fin 2) = 0)
    ∧ (win0_11.index t (0 : Fin 2) = 0 ∧ win0_11.index t (1 : Fin 2) = 0) ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- The row of the array that row p of point t's block is. -/
def rowOf (t : Fin cfg0.N) (p : Fin 256) : Fin 4096 := ⟨t.val * 256 + p.val, by have : t.val < 16 := t.isLt; have := p.isLt; omega⟩

/-! ## Each window's block read at an element -/

theorem blk0 (c : Dev nD) (t : Fin cfg0.N) (p : Fin 256) (i : Fin 1024) :
    iblk m c 0 t (ix2 p i) = a0 m c (ix2 (rowOf t p) i) := by
  show V m c main_arg0 (((cfg0.win 0).blk t).view.emb (ix2 p i)) = _
  rw [V_main_arg0]
  refine congrArg (a0 m c) (funext fun a => Fin.ext ?_)
  obtain ⟨e0, e1⟩ := idx0 t
  match a with
  | ⟨0, _⟩ => show win0_0.index t (0 : Fin 2) * 256 + 1 * p.val = t.val * 256 + p.val; omega
  | ⟨1, _⟩ => show win0_0.index t (1 : Fin 2) * 1024 + 1 * i.val = i.val; omega

theorem blk1 (c : Dev nD) (t : Fin cfg0.N) (q : Fin 1024) :
    iblk m c 1 t (ix2 (0 : Fin 1) q) = a1 m c (ix1 q) := by
  show V m c main_v0 (((cfg0.win 1).blk t).view.emb (ix2 (0 : Fin 1) q)) = _
  have he : ((cfg0.win 1).blk t).view.emb (ix2 (0 : Fin 1) q) = (ix2 (0 : Fin 1) q) := by
    funext d; apply Fin.ext
    obtain ⟨e0, e1⟩ := (idx_res t).1
    match d with
    | ⟨0, _⟩ => show win0_1.index t (0 : Fin 2) * 1 + 1 * 0 = 0; omega
    | ⟨1, _⟩ => show win0_1.index t (1 : Fin 2) * 1024 + 1 * (q).val = (q).val; omega
  rw [he]
  exact V_v0_apply m c q
theorem blk2 (c : Dev nD) (t : Fin cfg0.N) (q : Fin 1024) (r : Fin 32) :
    iblk m c 2 t (ix2 q r) = a2 m c (ix2 q r) := by
  show V m c main_arg2 (((cfg0.win 2).blk t).view.emb (ix2 q r)) = _
  have he : ((cfg0.win 2).blk t).view.emb (ix2 q r) = (ix2 q r) := by
    funext d; apply Fin.ext
    obtain ⟨e0, e1⟩ := (idx_res t).2.1
    match d with
    | ⟨0, _⟩ => show win0_2.index t (0 : Fin 2) * 1024 + 1 * (q).val = (q).val; omega
    | ⟨1, _⟩ => show win0_2.index t (1 : Fin 2) * 32 + 1 * (r).val = (r).val; omega
  rw [he]
  rw [V_main_arg2]
theorem blk3 (c : Dev nD) (t : Fin cfg0.N) (q : Fin 1024) (r : Fin 32) :
    iblk m c 3 t (ix2 q r) = a3 m c (ix2 q r) := by
  show V m c main_arg3 (((cfg0.win 3).blk t).view.emb (ix2 q r)) = _
  have he : ((cfg0.win 3).blk t).view.emb (ix2 q r) = (ix2 q r) := by
    funext d; apply Fin.ext
    obtain ⟨e0, e1⟩ := (idx_res t).2.2.1
    match d with
    | ⟨0, _⟩ => show win0_3.index t (0 : Fin 2) * 1024 + 1 * (q).val = (q).val; omega
    | ⟨1, _⟩ => show win0_3.index t (1 : Fin 2) * 32 + 1 * (r).val = (r).val; omega
  rw [he]
  rw [V_main_arg3]
theorem blk4 (c : Dev nD) (t : Fin cfg0.N) (q : Fin 1024) (r : Fin 32) :
    iblk m c 4 t (ix2 q r) = a4 m c (ix2 q r) := by
  show V m c main_arg4 (((cfg0.win 4).blk t).view.emb (ix2 q r)) = _
  have he : ((cfg0.win 4).blk t).view.emb (ix2 q r) = (ix2 q r) := by
    funext d; apply Fin.ext
    obtain ⟨e0, e1⟩ := (idx_res t).2.2.2.1
    match d with
    | ⟨0, _⟩ => show win0_4.index t (0 : Fin 2) * 1024 + 1 * (q).val = (q).val; omega
    | ⟨1, _⟩ => show win0_4.index t (1 : Fin 2) * 32 + 1 * (r).val = (r).val; omega
  rw [he]
  rw [V_main_arg4]
theorem blk5 (c : Dev nD) (t : Fin cfg0.N) (a : Fin 32) (i : Fin 1024) :
    iblk m c 5 t (ix2 a i) = a5 m c (ix3 (0 : Fin 1) a i) := by
  show V m c main_v1 (((cfg0.win 5).blk t).view.emb (ix2 a i)) = _
  have he : ((cfg0.win 5).blk t).view.emb (ix2 a i) = (ix2 a i) := by
    funext d; apply Fin.ext
    obtain ⟨e0, e1⟩ := (idx_res t).2.2.2.2.1
    match d with
    | ⟨0, _⟩ => show win0_5.index t (0 : Fin 2) * 32 + 1 * (a).val = (a).val; omega
    | ⟨1, _⟩ => show win0_5.index t (1 : Fin 2) * 1024 + 1 * (i).val = (i).val; omega
  rw [he]
  exact V_v1_apply m c a i
theorem blk6 (c : Dev nD) (t : Fin cfg0.N) (a : Fin 32) (i : Fin 1024) :
    iblk m c 6 t (ix2 a i) = a6 m c (ix3 (0 : Fin 2) a i) := by
  show V m c main_v3 (((cfg0.win 6).blk t).view.emb (ix2 a i)) = _
  have he : ((cfg0.win 6).blk t).view.emb (ix2 a i) = (ix2 a i) := by
    funext d; apply Fin.ext
    obtain ⟨e0, e1⟩ := (idx_res t).2.2.2.2.2.1
    match d with
    | ⟨0, _⟩ => show win0_6.index t (0 : Fin 2) * 32 + 1 * (a).val = (a).val; omega
    | ⟨1, _⟩ => show win0_6.index t (1 : Fin 2) * 1024 + 1 * (i).val = (i).val; omega
  rw [he]
  exact V_v3_apply m c a i
theorem blk7 (c : Dev nD) (t : Fin cfg0.N) (a : Fin 32) (i : Fin 1024) :
    iblk m c 7 t (ix2 a i) = a6 m c (ix3 (1 : Fin 2) a i) := by
  show V m c main_v5 (((cfg0.win 7).blk t).view.emb (ix2 a i)) = _
  have he : ((cfg0.win 7).blk t).view.emb (ix2 a i) = (ix2 a i) := by
    funext d; apply Fin.ext
    obtain ⟨e0, e1⟩ := (idx_res t).2.2.2.2.2.2.1
    match d with
    | ⟨0, _⟩ => show win0_7.index t (0 : Fin 2) * 32 + 1 * (a).val = (a).val; omega
    | ⟨1, _⟩ => show win0_7.index t (1 : Fin 2) * 1024 + 1 * (i).val = (i).val; omega
  rw [he]
  exact V_v5_apply m c a i
theorem blk8 (c : Dev nD) (t : Fin cfg0.N) (a : Fin 32) (i : Fin 1024) :
    iblk m c 8 t (ix2 a i) = a7 m c (ix3 (0 : Fin 3) a i) := by
  show V m c main_v7 (((cfg0.win 8).blk t).view.emb (ix2 a i)) = _
  have he : ((cfg0.win 8).blk t).view.emb (ix2 a i) = (ix2 a i) := by
    funext d; apply Fin.ext
    obtain ⟨e0, e1⟩ := (idx_res t).2.2.2.2.2.2.2.1
    match d with
    | ⟨0, _⟩ => show win0_8.index t (0 : Fin 2) * 32 + 1 * (a).val = (a).val; omega
    | ⟨1, _⟩ => show win0_8.index t (1 : Fin 2) * 1024 + 1 * (i).val = (i).val; omega
  rw [he]
  exact V_v7_apply m c a i
theorem blk9 (c : Dev nD) (t : Fin cfg0.N) (a : Fin 32) (i : Fin 1024) :
    iblk m c 9 t (ix2 a i) = a7 m c (ix3 (1 : Fin 3) a i) := by
  show V m c main_v9 (((cfg0.win 9).blk t).view.emb (ix2 a i)) = _
  have he : ((cfg0.win 9).blk t).view.emb (ix2 a i) = (ix2 a i) := by
    funext d; apply Fin.ext
    obtain ⟨e0, e1⟩ := (idx_res t).2.2.2.2.2.2.2.2.1
    match d with
    | ⟨0, _⟩ => show win0_9.index t (0 : Fin 2) * 32 + 1 * (a).val = (a).val; omega
    | ⟨1, _⟩ => show win0_9.index t (1 : Fin 2) * 1024 + 1 * (i).val = (i).val; omega
  rw [he]
  exact V_v9_apply m c a i
theorem blk10 (c : Dev nD) (t : Fin cfg0.N) (a : Fin 32) (i : Fin 1024) :
    iblk m c 10 t (ix2 a i) = a7 m c (ix3 (2 : Fin 3) a i) := by
  show V m c main_v11 (((cfg0.win 10).blk t).view.emb (ix2 a i)) = _
  have he : ((cfg0.win 10).blk t).view.emb (ix2 a i) = (ix2 a i) := by
    funext d; apply Fin.ext
    obtain ⟨e0, e1⟩ := (idx_res t).2.2.2.2.2.2.2.2.2.1
    match d with
    | ⟨0, _⟩ => show win0_10.index t (0 : Fin 2) * 32 + 1 * (a).val = (a).val; omega
    | ⟨1, _⟩ => show win0_10.index t (1 : Fin 2) * 1024 + 1 * (i).val = (i).val; omega
  rw [he]
  exact V_v11_apply m c a i
theorem blk11 (c : Dev nD) (t : Fin cfg0.N) (r a : Fin 32) :
    iblk m c 11 t (ix2 r a) = a8 m c (ix2 r a) := by
  show V m c main_arg8 (((cfg0.win 11).blk t).view.emb (ix2 r a)) = _
  have he : ((cfg0.win 11).blk t).view.emb (ix2 r a) = (ix2 r a) := by
    funext d; apply Fin.ext
    obtain ⟨e0, e1⟩ := (idx_res t).2.2.2.2.2.2.2.2.2.2.1
    match d with
    | ⟨0, _⟩ => show win0_11.index t (0 : Fin 2) * 32 + 1 * (r).val = (r).val; omega
    | ⟨1, _⟩ => show win0_11.index t (1 : Fin 2) * 32 + 1 * (a).val = (a).val; omega
  rw [he]
  rw [V_main_arg8]
theorem blk12 (c : Dev nD) (t : Fin cfg0.N) (r : Fin 32) (k : Fin 1024) :
    iblk m c 12 t (ix2 r k) = a9 m c (ix2 r k) := by
  show V m c main_arg9 (((cfg0.win 12).blk t).view.emb (ix2 r k)) = _
  have he : ((cfg0.win 12).blk t).view.emb (ix2 r k) = (ix2 r k) := by
    funext d; apply Fin.ext
    obtain ⟨e0, e1⟩ := (idx_res t).2.2.2.2.2.2.2.2.2.2.2.1
    match d with
    | ⟨0, _⟩ => show win0_12.index t (0 : Fin 2) * 32 + 1 * (r).val = (r).val; omega
    | ⟨1, _⟩ => show win0_12.index t (1 : Fin 2) * 1024 + 1 * (k).val = (k).val; omega
  rw [he]
  rw [V_main_arg9]
theorem blk13 (c : Dev nD) (t : Fin cfg0.N) (j k : Fin 1024) :
    iblk m c 13 t (ix2 j k) = a10 m c (ix2 (hi j) (triple (lo j) k)) := by
  show V m c main_v12 (((cfg0.win 13).blk t).view.emb (ix2 j k)) = _
  have he : ((cfg0.win 13).blk t).view.emb (ix2 j k) = (ix2 j k) := by
    funext d; apply Fin.ext
    obtain ⟨e0, e1⟩ := (idx_res t).2.2.2.2.2.2.2.2.2.2.2.2
    match d with
    | ⟨0, _⟩ => show win0_13.index t (0 : Fin 2) * 1024 + 1 * (j).val = (j).val; omega
    | ⟨1, _⟩ => show win0_13.index t (1 : Fin 2) * 1024 + 1 * (k).val = (k).val; omega
  rw [he]
  exact V_v12_apply m c j k

/-! ## What a point writes back, the cover, the array after the run -/

/-- Point t writes back block t of `arrG` of the argument arrays: each of the block's rows is `kerRow` of
    the matching input row and the factors. -/
theorem flushed_eq (c : Dev nD) (t : Fin cfg0.N) :
    (dats m 0 c).flushed 14 t = ((cfg0.win 14).blk t).view.read (Elt Ideal)
      (arrG (a0 m c) (a1 m c) (a2 m c) (a3 m c) (a4 m c) (a5 m c) (a6 m c) (a7 m c) (a8 m c) (a9 m c) (a10 m c)) := by
  rw [Cert.KernelIdeal.Value.flushed14]
  funext j
  obtain ⟨p, q, rfl⟩ : ∃ (p : Fin 256) (q : Fin 1024), j = ix2 p q := ⟨j 0, j 1, eq_ix2 j⟩
  show out0_14 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (ix2 p q)
    = arrG (a0 m c) (a1 m c) (a2 m c) (a3 m c) (a4 m c) (a5 m c) (a6 m c) (a7 m c) (a8 m c) (a9 m c) (a10 m c)
        (((cfg0.win 14).blk t).view.emb (ix2 p q))
  have he : ((cfg0.win 14).blk t).view.emb (ix2 p q) = ix2 (rowOf t p) q := by
    funext a; apply Fin.ext
    obtain ⟨e0, e1⟩ := idx14 t
    match a with
    | ⟨0, _⟩ => show win0_14.index t (0 : Fin 2) * 256 + 1 * p.val = t.val * 256 + p.val; omega
    | ⟨1, _⟩ => show win0_14.index t (1 : Fin 2) * 1024 + 1 * q.val = q.val; omega
  rw [he]
  refine (Block.out_apply _ _ _ _ _ _ _ _ _ _ _ _ _ _ p q).trans ?_
  simp only [blk0, blk1, blk2, blk3, blk4, blk5, blk6, blk7, blk8, blk9, blk10, blk11, blk12, blk13]
  rfl

/-- An index of the array is in point t's block iff each coordinate is in the block's range on its axis. -/
theorem mem_blk (t : Fin cfg0.N) (i : S4096x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v13).slice (win0_14.rect t)).set ↔ _
  rw [View.set_slice_whole, Rect.mem_set_unit]
  exact Iff.rfl

/-- The sixteen row blocks tile the array: row b is in the block of point b / 256. -/
theorem cover (i : S4096x1024.Idx) : ∃ t : Fin cfg0.N, (cfg0.win 14).flush t = true ∧ i ∈ ((cfg0.win 14).blk t).view.set := by
  have hi0 : (i 0).val < 4096 := (i 0).isLt
  have hi1 : (i 1).val < 1024 := (i 1).isLt
  let t : Fin cfg0.N := ⟨(i 0).val / 256, by show (i 0).val / 256 < 16; omega⟩
  refine ⟨t, flush0_14 t, ?_⟩
  rw [mem_blk]
  obtain ⟨e0, e1⟩ := idx14 t
  have ht : t.val = (i 0).val / 256 := rfl
  intro a
  match a with
  | ⟨0, _⟩ => show win0_14.index t (0 : Fin 2) * 256 ≤ (i 0).val ∧ (i 0).val < win0_14.index t (0 : Fin 2) * 256 + 256; omega
  | ⟨1, _⟩ => show win0_14.index t (1 : Fin 2) * 1024 ≤ (i 1).val ∧ (i 1).val < win0_14.index t (1 : Fin 2) * 1024 + 1024; omega

/-- The result array after the run is `arrG` of the argument arrays. -/
theorem final (c : Dev nD) : (dats m 0 c).arrAt 14 cfg0.N
    = arrG (a0 m c) (a1 m c) (a2 m c) (a3 m c) (a4 m c) (a5 m c) (a6 m c) (a7 m c) (a8 m c) (a9 m c) (a10 m c) :=
  (dats m 0 c).arrAt_eq_of_cover 14 _ (fun t _ => flushed_eq m c t) cover

/-- The kernel's run with the result named: every weakly fair execution ends with the result array at `arrG` of the
    arguments and the arguments unchanged. -/
theorem run : θ_run defs (onTc (τ := τ) (main (F := Ideal))) ⟨m, fun _ => 0, ρ⟩ fun r => ∀ c : Dev nD,
      r.2.mem ((c : Thread nD τ).loc main_v13)
        = arrG (a0 m c) (a1 m c) (a2 m c) (a3 m c) (a4 m c) (a5 m c) (a6 m c) (a7 m c) (a8 m c) (a9 m c) (a10 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Arr

end
-- ==== Proof.RefRow.lean ====
/-
  The reference program's result read at one element: the entry (b, o) of its output is the
  whole-Kronecker arrangement `refRow` of row b of the input and of the factor arrays, each read at its
  own coordinates (the leading axis of the stacked input factors selects the mode).
-/
import proofs.«179672_j26113401160148_1_alg».proof.Proof.Gen.ReferenceIdeal.Read
import proofs.«179672_j26113401160148_1_alg».proof.Proof.TuckerSpec
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx Cert.Tucker

/-- The order-0 projection: entry (a, b) is the contraction of row a of the mode-0 input factor with row b of the input. -/
private theorem v3_at (x0 : FVec Ideal S4096x1024 .f32) (x5 : FVec Ideal S1x32x1024 .f32) (a : Fin 32) (b : Fin 4096) :
    Read.val_main_v3 (F := Ideal) x0 x5 (ix2 a b) = ∑ i : Fin 1024, x5 (ix3 (0 : Fin 1) a i) * x0 (ix2 b i) := by
  rw [Read.val_main_v3_apply, Read.val_main_v2_apply]
  refine Finset.sum_congr rfl fun k _ => ?_
  have e1 : Read.lidx_main_v2 (Read.idx_main_v3 (ix2 a b)) k = ix3 (0 : Fin 1) a k := funext fun d => Fin.ext (by
    match d with
    | ⟨0, _⟩ => rfl
    | ⟨1, _⟩ => show (a.val * 4096 + b.val) / 4096 % 32 = a.val; have := a.isLt; have := b.isLt; omega
    | ⟨2, _⟩ => rfl)
  have e2 : Read.ridx_main_v2 (Read.idx_main_v3 (ix2 a b)) k = ix2 b k := funext fun d => Fin.ext (by
    match d with
    | ⟨0, _⟩ => show (a.val * 4096 + b.val) % 4096 = b.val; have := a.isLt; have := b.isLt; omega
    | ⟨1, _⟩ => rfl)
  rw [e1, e2]

/-- The order-1 projections, modes 0 and 1 of the stacked factor. -/
private theorem v10_at (x0 : FVec Ideal S4096x1024 .f32) (x6 : FVec Ideal S2x32x1024 .f32) (a : Fin 32) (b : Fin 4096) :
    Read.val_main_v10 (F := Ideal) x0 x6 (ix2 a b) = ∑ i : Fin 1024, x6 (ix3 (0 : Fin 2) a i) * x0 (ix2 b i) := by
  rw [Read.val_main_v10_apply, Read.val_main_v9_apply, Read.val_main_v8_apply]
  refine Finset.sum_congr rfl fun k _ => ?_
  have e1 : Read.lidx_main_v8 (Read.idx_main_v9 (Read.idx_main_v10 (ix2 a b))) k = ix3 (0 : Fin 2) a k := funext fun d => Fin.ext (by
    match d with
    | ⟨0, _⟩ => rfl
    | ⟨1, _⟩ => show (a.val * 4096 + b.val) / 4096 % 32 = a.val; have := a.isLt; have := b.isLt; omega
    | ⟨2, _⟩ => rfl)
  have e2 : Read.ridx_main_v8 (Read.idx_main_v9 (Read.idx_main_v10 (ix2 a b))) k = ix2 b k := funext fun d => Fin.ext (by
    match d with
    | ⟨0, _⟩ => show (a.val * 4096 + b.val) % 4096 = b.val; have := a.isLt; have := b.isLt; omega
    | ⟨1, _⟩ => rfl)
  rw [e1, e2]

private theorem v12_at (x0 : FVec Ideal S4096x1024 .f32) (x6 : FVec Ideal S2x32x1024 .f32) (a : Fin 32) (b : Fin 4096) :
    Read.val_main_v12 (F := Ideal) x0 x6 (ix2 a b) = ∑ i : Fin 1024, x6 (ix3 (1 : Fin 2) a i) * x0 (ix2 b i) := by
  rw [Read.val_main_v12_apply, Read.val_main_v11_apply, Read.val_main_v8_apply]
  refine Finset.sum_congr rfl fun k _ => ?_
  have e1 : Read.lidx_main_v8 (Read.idx_main_v11 (Read.idx_main_v12 (ix2 a b))) k = ix3 (1 : Fin 2) a k := funext fun d => Fin.ext (by
    match d with
    | ⟨0, _⟩ => rfl
    | ⟨1, _⟩ => show (a.val * 4096 + b.val) / 4096 % 32 = a.val; have := a.isLt; have := b.isLt; omega
    | ⟨2, _⟩ => rfl)
  have e2 : Read.ridx_main_v8 (Read.idx_main_v11 (Read.idx_main_v12 (ix2 a b))) k = ix2 b k := funext fun d => Fin.ext (by
    match d with
    | ⟨0, _⟩ => show (a.val * 4096 + b.val) % 4096 = b.val; have := a.isLt; have := b.isLt; omega
    | ⟨1, _⟩ => rfl)
  rw [e1, e2]

/-- The order-2 projections, modes 0, 1 and 2 of the stacked factor. -/
private theorem v25_at (x0 : FVec Ideal S4096x1024 .f32) (x7 : FVec Ideal S3x32x1024 .f32) (a : Fin 32) (b : Fin 4096) :
    Read.val_main_v25 (F := Ideal) x0 x7 (ix2 a b) = ∑ i : Fin 1024, x7 (ix3 (0 : Fin 3) a i) * x0 (ix2 b i) := by
  rw [Read.val_main_v25_apply, Read.val_main_v24_apply, Read.val_main_v23_apply]
  refine Finset.sum_congr rfl fun k _ => ?_
  have e1 : Read.lidx_main_v23 (Read.idx_main_v24 (Read.idx_main_v25 (ix2 a b))) k = ix3 (0 : Fin 3) a k := funext fun d => Fin.ext (by
    match d with
    | ⟨0, _⟩ => rfl
    | ⟨1, _⟩ => show (a.val * 4096 + b.val) / 4096 % 32 = a.val; have := a.isLt; have := b.isLt; omega
    | ⟨2, _⟩ => rfl)
  have e2 : Read.ridx_main_v23 (Read.idx_main_v24 (Read.idx_main_v25 (ix2 a b))) k = ix2 b k := funext fun d => Fin.ext (by
    match d with
    | ⟨0, _⟩ => show (a.val * 4096 + b.val) % 4096 = b.val; have := a.isLt; have := b.isLt; omega
    | ⟨1, _⟩ => rfl)
  rw [e1, e2]

private theorem v27_at (x0 : FVec Ideal S4096x1024 .f32) (x7 : FVec Ideal S3x32x1024 .f32) (a : Fin 32) (b : Fin 4096) :
    Read.val_main_v27 (F := Ideal) x0 x7 (ix2 a b) = ∑ i : Fin 1024, x7 (ix3 (1 : Fin 3) a i) * x0 (ix2 b i) := by
  rw [Read.val_main_v27_apply, Read.val_main_v26_apply, Read.val_main_v23_apply]
  refine Finset.sum_congr rfl fun k _ => ?_
  have e1 : Read.lidx_main_v23 (Read.idx_main_v26 (Read.idx_main_v27 (ix2 a b))) k = ix3 (1 : Fin 3) a k := funext fun d => Fin.ext (by
    match d with
    | ⟨0, _⟩ => rfl
    | ⟨1, _⟩ => show (a.val * 4096 + b.val) / 4096 % 32 = a.val; have := a.isLt; have := b.isLt; omega
    | ⟨2, _⟩ => rfl)
  have e2 : Read.ridx_main_v23 (Read.idx_main_v26 (Read.idx_main_v27 (ix2 a b))) k = ix2 b k := funext fun d => Fin.ext (by
    match d with
    | ⟨0, _⟩ => show (a.val * 4096 + b.val) % 4096 = b.val; have := a.isLt; have := b.isLt; omega
    | ⟨1, _⟩ => rfl)
  rw [e1, e2]

private theorem v34_at (x0 : FVec Ideal S4096x1024 .f32) (x7 : FVec Ideal S3x32x1024 .f32) (a : Fin 32) (b : Fin 4096) :
    Read.val_main_v34 (F := Ideal) x0 x7 (ix2 a b) = ∑ i : Fin 1024, x7 (ix3 (2 : Fin 3) a i) * x0 (ix2 b i) := by
  rw [Read.val_main_v34_apply, Read.val_main_v33_apply, Read.val_main_v23_apply]
  refine Finset.sum_congr rfl fun k _ => ?_
  have e1 : Read.lidx_main_v23 (Read.idx_main_v33 (Read.idx_main_v34 (ix2 a b))) k = ix3 (2 : Fin 3) a k := funext fun d => Fin.ext (by
    match d with
    | ⟨0, _⟩ => rfl
    | ⟨1, _⟩ => show (a.val * 4096 + b.val) / 4096 % 32 = a.val; have := a.isLt; have := b.isLt; omega
    | ⟨2, _⟩ => rfl)
  have e2 : Read.ridx_main_v23 (Read.idx_main_v33 (Read.idx_main_v34 (ix2 a b))) k = ix2 b k := funext fun d => Fin.ext (by
    match d with
    | ⟨0, _⟩ => show (a.val * 4096 + b.val) % 4096 = b.val; have := a.isLt; have := b.isLt; omega
    | ⟨1, _⟩ => rfl)
  rw [e1, e2]

/-- Row k of the two-factor Kronecker product is the product of the rows at the low and high digits of k. -/
private theorem v18_at (x0 : FVec Ideal S4096x1024 .f32) (x6 : FVec Ideal S2x32x1024 .f32) (k : Fin 1024) (b : Fin 4096) :
    Read.val_main_v18 (F := Ideal) x0 x6 (ix2 k b)
      = Read.val_main_v10 (F := Ideal) x0 x6 (ix2 (lo k) b) * Read.val_main_v12 (F := Ideal) x0 x6 (ix2 (hi k) b) := by
  rw [Read.val_main_v18_apply, Read.val_main_v17_apply, Read.val_main_v15_apply, Read.val_main_v14_apply,
    Read.val_main_v16_apply, Read.val_main_v13_apply]
  have hk := k.isLt
  have hb := b.isLt
  have e1 : Read.idx_main_v14 (Read.idx_main_v15 (Read.idx_main_v18 (ix2 k b))) = ix2 (lo k) b := funext fun d => Fin.ext (by
    match d with
    | ⟨0, _⟩ => show (k.val * 4096 + b.val) / 4096 % 32 = k.val % 32; omega
    | ⟨1, _⟩ => show (k.val * 4096 + b.val) % 4096 = b.val; omega)
  have e2 : Read.idx_main_v13 (Read.idx_main_v16 (Read.idx_main_v18 (ix2 k b))) = ix2 (hi k) b := funext fun d => Fin.ext (by
    match d with
    | ⟨0, _⟩ => show (((k.val * 4096 + b.val) / 131072 * 1 + 0) * 4096 + (k.val * 4096 + b.val) % 4096) / 4096 = k.val / 32; omega
    | ⟨1, _⟩ => show (((k.val * 4096 + b.val) / 131072 * 1 + 0) * 4096 + (k.val * 4096 + b.val) % 4096) % 4096 = b.val; omega)
  rw [e1, e2]
  rfl

/-- Row K of the three-factor Kronecker product is the product of the rows at the three digits of K. -/
private theorem v40_at (x0 : FVec Ideal S4096x1024 .f32) (x7 : FVec Ideal S3x32x1024 .f32) (K : Fin 32768) (b : Fin 4096) :
    Read.val_main_v40 (F := Ideal) x0 x7 (ix2 K b)
      = (Read.val_main_v25 (F := Ideal) x0 x7 (ix2 (lo3 K) b) * Read.val_main_v27 (F := Ideal) x0 x7 (ix2 (mid3 K) b))
          * Read.val_main_v34 (F := Ideal) x0 x7 (ix2 (hi3 K) b) := by
  rw [Read.val_main_v40_apply, Read.val_main_v39_apply, Read.val_main_v37_apply, Read.val_main_v36_apply,
    Read.val_main_v32_apply, Read.val_main_v30_apply, Read.val_main_v29_apply, Read.val_main_v31_apply,
    Read.val_main_v28_apply, Read.val_main_v38_apply, Read.val_main_v35_apply]
  have hK := K.isLt
  have hb := b.isLt
  have e1 : Read.idx_main_v29 (Read.idx_main_v30 (Read.idx_main_v36 (Read.idx_main_v37 (Read.idx_main_v40 (ix2 K b)))))
      = ix2 (lo3 K) b := funext fun d => Fin.ext (by
    match d with
    | ⟨0, _⟩ => show (K.val * 4096 + b.val) / 4096 % 32 = K.val % 32; omega
    | ⟨1, _⟩ => show (K.val * 4096 + b.val) % 4096 = b.val; omega)
  have e2 : Read.idx_main_v28 (Read.idx_main_v31 (Read.idx_main_v36 (Read.idx_main_v37 (Read.idx_main_v40 (ix2 K b)))))
      = ix2 (mid3 K) b := funext fun d => Fin.ext (by
    match d with
    | ⟨0, _⟩ => show (((K.val * 4096 + b.val) / 131072 % 32 * 1 + 0) * 4096 + (K.val * 4096 + b.val) % 4096) / 4096 = K.val / 32 % 32; omega
    | ⟨1, _⟩ => show (((K.val * 4096 + b.val) / 131072 % 32 * 1 + 0) * 4096 + (K.val * 4096 + b.val) % 4096) % 4096 = b.val; omega)
  have e3 : Read.idx_main_v35 (Read.idx_main_v38 (Read.idx_main_v40 (ix2 K b))) = ix2 (hi3 K) b := funext fun d => Fin.ext (by
    match d with
    | ⟨0, _⟩ => show ((((K.val * 4096 + b.val) / 4194304 * 1 + 0) * 1 + 0) * 4096 + (K.val * 4096 + b.val) % 4096) / 4096 = K.val / 1024; omega
    | ⟨1, _⟩ => show ((((K.val * 4096 + b.val) / 4194304 * 1 + 0) * 1 + 0) * 4096 + (K.val * 4096 + b.val) % 4096) % 4096 = b.val; omega)
  rw [e1, e2, e3]
  rfl

/-- The order-0 term at (b, o): output factor times core times projection. -/
private theorem v6_at (x0 : FVec Ideal S4096x1024 .f32) (x2 : FVec Ideal S1024x32 .f32) (x5 : FVec Ideal S1x32x1024 .f32)
    (x8 : FVec Ideal S32x32 .f32) (b : Fin 4096) (o : Fin 1024) :
    Read.val_main_v6 (F := Ideal) x0 x2 x5 x8 (ix2 b o)
      = ∑ r : Fin 32, x2 (ix2 o r) * ∑ a : Fin 32, x8 (ix2 r a) * ∑ i : Fin 1024, x5 (ix3 (0 : Fin 1) a i) * x0 (ix2 b i) := by
  rw [Read.val_main_v6_apply, Read.val_main_v5_apply]
  refine Finset.sum_congr rfl fun r _ => ?_
  rw [(show Read.lidx_main_v5 (Read.idx_main_v6 (ix2 b o)) r = ix2 o r from funext fun d => Fin.ext (by match d with | ⟨0, _⟩ => rfl | ⟨1, _⟩ => rfl)),
    (show Read.ridx_main_v5 (Read.idx_main_v6 (ix2 b o)) r = ix2 r b from funext fun d => Fin.ext (by match d with | ⟨0, _⟩ => rfl | ⟨1, _⟩ => rfl)), Read.val_main_v4_apply]
  refine congrArg (HMul.hMul _) ?_
  refine Finset.sum_congr rfl fun a _ => ?_
  rw [(show Read.lidx_main_v4 (ix2 r b) a = ix2 r a from funext fun d => Fin.ext (by match d with | ⟨0, _⟩ => rfl | ⟨1, _⟩ => rfl)),
    (show Read.ridx_main_v4 (ix2 r b) a = ix2 a b from funext fun d => Fin.ext (by match d with | ⟨0, _⟩ => rfl | ⟨1, _⟩ => rfl)), v3_at]

/-- The order-1 term at (b, o). -/
private theorem v21_at (x0 : FVec Ideal S4096x1024 .f32) (x3 : FVec Ideal S1024x32 .f32) (x6 : FVec Ideal S2x32x1024 .f32)
    (x9 : FVec Ideal S32x1024 .f32) (b : Fin 4096) (o : Fin 1024) :
    Read.val_main_v21 (F := Ideal) x0 x3 x6 x9 (ix2 b o)
      = ∑ r : Fin 32, x3 (ix2 o r) * ∑ k : Fin 1024, x9 (ix2 r k)
          * ((∑ i : Fin 1024, x6 (ix3 (0 : Fin 2) (lo k) i) * x0 (ix2 b i))
            * (∑ i : Fin 1024, x6 (ix3 (1 : Fin 2) (hi k) i) * x0 (ix2 b i))) := by
  rw [Read.val_main_v21_apply, Read.val_main_v20_apply]
  refine Finset.sum_congr rfl fun r _ => ?_
  rw [(show Read.lidx_main_v20 (Read.idx_main_v21 (ix2 b o)) r = ix2 o r from funext fun d => Fin.ext (by match d with | ⟨0, _⟩ => rfl | ⟨1, _⟩ => rfl)),
    (show Read.ridx_main_v20 (Read.idx_main_v21 (ix2 b o)) r = ix2 r b from funext fun d => Fin.ext (by match d with | ⟨0, _⟩ => rfl | ⟨1, _⟩ => rfl)), Read.val_main_v19_apply]
  refine congrArg (HMul.hMul _) ?_
  refine Finset.sum_congr rfl fun k _ => ?_
  rw [(show Read.lidx_main_v19 (ix2 r b) k = ix2 r k from funext fun d => Fin.ext (by match d with | ⟨0, _⟩ => rfl | ⟨1, _⟩ => rfl)),
    (show Read.ridx_main_v19 (ix2 r b) k = ix2 k b from funext fun d => Fin.ext (by match d with | ⟨0, _⟩ => rfl | ⟨1, _⟩ => rfl)), v18_at, v10_at, v12_at]

/-- The order-2 term at (b, o). -/
private theorem v43_at (x0 : FVec Ideal S4096x1024 .f32) (x4 : FVec Ideal S1024x32 .f32) (x7 : FVec Ideal S3x32x1024 .f32)
    (x10 : FVec Ideal S32x32768 .f32) (b : Fin 4096) (o : Fin 1024) :
    Read.val_main_v43 (F := Ideal) x0 x4 x7 x10 (ix2 b o)
      = ∑ r : Fin 32, x4 (ix2 o r) * ∑ K : Fin 32768, x10 (ix2 r K)
          * (((∑ i : Fin 1024, x7 (ix3 (0 : Fin 3) (lo3 K) i) * x0 (ix2 b i))
              * (∑ i : Fin 1024, x7 (ix3 (1 : Fin 3) (mid3 K) i) * x0 (ix2 b i)))
            * (∑ i : Fin 1024, x7 (ix3 (2 : Fin 3) (hi3 K) i) * x0 (ix2 b i))) := by
  rw [Read.val_main_v43_apply, Read.val_main_v42_apply]
  refine Finset.sum_congr rfl fun r _ => ?_
  rw [(show Read.lidx_main_v42 (Read.idx_main_v43 (ix2 b o)) r = ix2 o r from funext fun d => Fin.ext (by match d with | ⟨0, _⟩ => rfl | ⟨1, _⟩ => rfl)),
    (show Read.ridx_main_v42 (Read.idx_main_v43 (ix2 b o)) r = ix2 r b from funext fun d => Fin.ext (by match d with | ⟨0, _⟩ => rfl | ⟨1, _⟩ => rfl)), Read.val_main_v41_apply]
  refine congrArg (HMul.hMul _) ?_
  refine Finset.sum_congr rfl fun K _ => ?_
  rw [(show Read.lidx_main_v41 (ix2 r b) K = ix2 r K from funext fun d => Fin.ext (by match d with | ⟨0, _⟩ => rfl | ⟨1, _⟩ => rfl)),
    (show Read.ridx_main_v41 (ix2 r b) K = ix2 K b from funext fun d => Fin.ext (by match d with | ⟨0, _⟩ => rfl | ⟨1, _⟩ => rfl)), v40_at, v25_at, v27_at, v34_at]

/-- The broadcast bias at (b, o) is the bias at o. -/
private theorem v1_at (x1 : FVec Ideal S1024 .f32) (b : Fin 4096) (o : Fin 1024) :
    Read.val_main_v1 (F := Ideal) x1 (ix2 b o) = x1 (ix1 o) := by
  rw [Read.val_main_v1_apply, Read.val_main_v0_apply]
  exact congrArg x1 (funext fun d => Fin.ext (by match d with | ⟨0, _⟩ => rfl))

theorem val_apply (x0 : FVec Ideal S4096x1024 .f32) (x1 : FVec Ideal S1024 .f32) (x2 x3 x4 : FVec Ideal S1024x32 .f32)
    (x5 : FVec Ideal S1x32x1024 .f32) (x6 : FVec Ideal S2x32x1024 .f32) (x7 : FVec Ideal S3x32x1024 .f32)
    (x8 : FVec Ideal S32x32 .f32) (x9 : FVec Ideal S32x1024 .f32) (x10 : FVec Ideal S32x32768 .f32)
    (b : Fin 4096) (o : Fin 1024) :
    Cert.ReferenceIdeal.Read.val_main_v44 (F := Ideal) x0 x1 x2 x3 x4 x5 x6 x7 x8 x9 x10 (ix2 b o)
      = refRow (fun i => x0 (ix2 b i)) (fun q => x1 (ix1 q))
          (fun q r => x2 (ix2 q r)) (fun q r => x3 (ix2 q r)) (fun q r => x4 (ix2 q r))
          (fun a i => x5 (ix3 (0 : Fin 1) a i))
          (fun a i => x6 (ix3 (0 : Fin 2) a i)) (fun a i => x6 (ix3 (1 : Fin 2) a i))
          (fun a i => x7 (ix3 (0 : Fin 3) a i)) (fun a i => x7 (ix3 (1 : Fin 3) a i)) (fun a i => x7 (ix3 (2 : Fin 3) a i))
          (fun r a => x8 (ix2 r a)) (fun r k => x9 (ix2 r k)) (fun r K => x10 (ix2 r K)) o := by
  rw [Read.val_main_v44_apply, Read.val_main_v22_apply, Read.val_main_v7_apply, v1_at, v6_at, v21_at, v43_at]
  rfl

end Cert.ReferenceIdeal.RefValue

end
-- ==== Proof.TuckerAlgebra.lean ====
/-
  The two arrangements of the Tucker–Taylor row agree when every entry is a real number.

  On the extended reals a product does not distribute over a sum at the infinities, so the step that
  moves the third projection inside the sum over the pair (a1, a0) is taken on the reals: all inputs are
  coerced reals, every sum and product of coerced reals is the coerced sum or product, and the two real
  formulas are equal by commutativity, distributivity and the bijection (a2, k) ↦ a2·1024 + k between
  32 × 1024 and 32768 positions.
-/
import proofs.«179672_j26113401160148_1_alg».proof.Proof.TuckerSpec

noncomputable section

open scoped BigOperators

namespace Cert.Tucker

/-- The coercion of a finite real sum is the sum of the coercions. -/
private theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

private theorem hi_pair (r a : Fin 32) : hi (pair r a) = r := by
  apply Fin.ext; simp only [hi, pair]; have := a.isLt; omega

private theorem lo_pair (r a : Fin 32) : lo (pair r a) = a := by
  apply Fin.ext; simp only [lo, pair]; have := a.isLt; omega

private theorem lo3_triple (a2 : Fin 32) (k : Fin 1024) : lo3 (triple a2 k) = lo k := by
  apply Fin.ext; simp only [lo3, triple, lo]; omega

private theorem mid3_triple (a2 : Fin 32) (k : Fin 1024) : mid3 (triple a2 k) = hi k := by
  apply Fin.ext; simp only [mid3, triple, hi]; have := k.isLt; omega

private theorem hi3_triple (a2 : Fin 32) (k : Fin 1024) : hi3 (triple a2 k) = a2 := by
  apply Fin.ext; simp only [hi3, triple]; have := k.isLt; omega

/-- The bijection (a2, k) ↦ a2·1024 + k between 32 × 1024 and 32768 positions. -/
private def tripleEquiv : Fin 32 × Fin 1024 ≃ Fin 32768 where
  toFun p := triple p.1 p.2
  invFun K := (hi3 K, ⟨K.val % 1024, by omega⟩)
  left_inv p := by
    rcases p with ⟨a2, k⟩
    apply Prod.ext
    · exact hi3_triple a2 k
    · apply Fin.ext; simp only [triple]; have := k.isLt; omega
  right_inv K := by
    apply Fin.ext; simp only [triple, hi3]; omega

/-- The order-2 contraction, mode by mode, equals the contraction against the whole Kronecker product. -/
private theorem order2 (G : Fin 32768 → ℝ) (Z0 Z1 Z2 : Fin 32 → ℝ) :
    ∑ a2 : Fin 32, (∑ k : Fin 1024, (Z1 (hi k) * Z0 (lo k)) * G (triple a2 k)) * Z2 a2
      = ∑ K : Fin 32768, G K * ((Z0 (lo3 K) * Z1 (mid3 K)) * Z2 (hi3 K)) := by
  rw [← tripleEquiv.sum_comp, Fintype.sum_prod_type]
  apply Finset.sum_congr rfl; intro a2 _
  rw [Finset.sum_mul]
  apply Finset.sum_congr rfl; intro k _
  show _ = G (triple a2 k) * ((Z0 (lo3 (triple a2 k)) * Z1 (mid3 (triple a2 k))) * Z2 (hi3 (triple a2 k)))
  rw [lo3_triple, mid3_triple, hi3_triple]
  ring

theorem kerRow_eq_refRow (x c : Fin 1024 → ℝ) (O0 O1 O2 : Fin 1024 → Fin 32 → ℝ)
    (I0 I10 I11 I20 I21 I22 : Fin 32 → Fin 1024 → ℝ) (G0 : Fin 32 → Fin 32 → ℝ) (G1 : Fin 32 → Fin 1024 → ℝ)
    (G2 : Fin 32 → Fin 32768 → ℝ) (o : Fin 1024) :
    kerRow (fun i => ((x i : ℝ) : EReal)) (fun i => ((c i : ℝ) : EReal))
        (fun o r => ((O0 o r : ℝ) : EReal)) (fun o r => ((O1 o r : ℝ) : EReal)) (fun o r => ((O2 o r : ℝ) : EReal))
        (fun a i => ((I0 a i : ℝ) : EReal)) (fun a i => ((I10 a i : ℝ) : EReal)) (fun a i => ((I11 a i : ℝ) : EReal))
        (fun a i => ((I20 a i : ℝ) : EReal)) (fun a i => ((I21 a i : ℝ) : EReal)) (fun a i => ((I22 a i : ℝ) : EReal))
        (fun r a => ((G0 r a : ℝ) : EReal)) (fun r k => ((G1 r k : ℝ) : EReal))
        (fun j k => ((G2 (hi j) (triple (lo j) k) : ℝ) : EReal)) o
      = refRow (fun i => ((x i : ℝ) : EReal)) (fun i => ((c i : ℝ) : EReal))
        (fun o r => ((O0 o r : ℝ) : EReal)) (fun o r => ((O1 o r : ℝ) : EReal)) (fun o r => ((O2 o r : ℝ) : EReal))
        (fun a i => ((I0 a i : ℝ) : EReal)) (fun a i => ((I10 a i : ℝ) : EReal)) (fun a i => ((I11 a i : ℝ) : EReal))
        (fun a i => ((I20 a i : ℝ) : EReal)) (fun a i => ((I21 a i : ℝ) : EReal)) (fun a i => ((I22 a i : ℝ) : EReal))
        (fun r a => ((G0 r a : ℝ) : EReal)) (fun r k => ((G1 r k : ℝ) : EReal))
        (fun r K => ((G2 r K : ℝ) : EReal)) o := by
  unfold kerRow refRow
  simp only [← EReal.coe_mul, ← coe_sum, ← EReal.coe_add, hi_pair, lo_pair]
  rw [EReal.coe_eq_coe_iff]
  congr 1
  · congr 1
    · congr 1
      apply Finset.sum_congr rfl; intro r _
      rw [mul_comm]
      congr 1
      apply Finset.sum_congr rfl; intro a _
      rw [mul_comm]
      congr 1
      apply Finset.sum_congr rfl; intro i _
      rw [mul_comm]
    · apply Finset.sum_congr rfl; intro r _
      rw [mul_comm]
      congr 1
      apply Finset.sum_congr rfl; intro k _
      have h1 : ∑ i : Fin 1024, x i * I11 (hi k) i = ∑ i : Fin 1024, I11 (hi k) i * x i :=
        Finset.sum_congr rfl (fun i _ => mul_comm _ _)
      have h0 : ∑ i : Fin 1024, x i * I10 (lo k) i = ∑ i : Fin 1024, I10 (lo k) i * x i :=
        Finset.sum_congr rfl (fun i _ => mul_comm _ _)
      rw [h1, h0]; ring
  · apply Finset.sum_congr rfl; intro r _
    rw [mul_comm]
    refine congrArg (fun t => O2 o r * t) ?_
    have hz : ∀ (f : Fin 1024 → ℝ),
        ∑ i : Fin 1024, f i * x i = ∑ i : Fin 1024, x i * f i :=
      fun f => Finset.sum_congr rfl (fun i _ => mul_comm _ _)
    simp only [hz]
    exact order2 (G2 r) (fun a => ∑ i : Fin 1024, x i * I20 a i) (fun a => ∑ i : Fin 1024, x i * I21 a i)
      (fun a => ∑ i : Fin 1024, x i * I22 a i)

end Cert.Tucker

end
-- ==== Proof.Finite.lean ====
/-
  The precondition read as a fact about numbers: when the printed predicate "every entry of every input
  has absolute value below +∞" evaluates to true, each of the eleven input arrays consists of real
  numbers (no entry is +∞ or −∞).
-/
import proofs.«179672_j26113401160148_1_alg».proof.Proof.Gen.Pre_finite_inputs
import Idealize.ShloMosaic.PureOps.Ideal
import Idealize.ShloMosaic.Lib.ReduceAll
import Idealize.ShloMosaic.Lib.ValueIdx

noncomputable section

open scoped BigOperators

namespace Cert.Finite

open Idealize.ShloMosaic Cert.Pre_finite_inputs

/-- Every entry of the array is a real number. -/
def IsReal {S : Shape} (A : S.Idx → EReal) : Prop := ∃ a : S.Idx → ℝ, A = fun i => ((a i : ℝ) : EReal)

/-- An array none of whose entries is +∞ or −∞ consists of real numbers: the real parts are a witness. -/
private theorem isReal_of_ne {S : Shape} (A : S.Idx → EReal) (hA : ∀ i, A i ≠ ⊤ ∧ A i ≠ ⊥) : IsReal A :=
  ⟨fun i => (A i).toReal, funext fun i => (EReal.coe_toReal (hA i).1 (hA i).2).symm⟩

/-- One entry: if the comparison |x| < +∞ holds (|x| = max x (−x), the word 0x7F800000 is +∞), then x is
    neither +∞ nor −∞. For x = −∞ the negation −x is +∞, which is not below +∞. -/
private theorem ne_of_bit (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine ⟨ne_of_lt hlt.1, ?_⟩
  intro hb
  rw [hb] at hlt
  simp at hlt

/-- The scalar shape has exactly one index. -/
private instance : Subsingleton S_.Idx := ⟨fun a b => funext fun d => d.elim0⟩

/-- One array: if the conjunction over all entries of "|A i| < +∞" is true, then every entry is real. -/
private theorem isReal_of_all {S : Shape} {axes : List (Fin S.rank)} (A : FVec Ideal S .f32)
    (hb : S_.BroadcastsInDim S (![] : Fin 0 → Fin S.rank)) (hr : S.ReducesTo axes S_) (hu : 0 < S_.numel)
    (e : Host.reduce IntOp.andi (cmpf .olt (Host.absf A) (broadcastInDim S ![] hb (constant S_ .f32 0x7F800000#32)))
      (constantI S_ 1 1#1) hr hu ValueIdx.ix0 = 1#1) : IsReal (S := S) A := by
  refine isReal_of_ne (S := S) A fun i => ?_
  have hi := Host.reduce_andi_all _ _ hr hu ValueIdx.ix0 e i
  exact ne_of_bit (A i) hi

theorem real_of_fn (A0 : FVec Ideal S4096x1024 .f32) (A1 : FVec Ideal S1024 .f32) (A2 A3 A4 : FVec Ideal S1024x32 .f32)
    (A5 : FVec Ideal S1x32x1024 .f32) (A6 : FVec Ideal S2x32x1024 .f32) (A7 : FVec Ideal S3x32x1024 .f32)
    (A8 : FVec Ideal S32x32 .f32) (A9 : FVec Ideal S32x1024 .f32) (A10 : FVec Ideal S32x32768 .f32)
    (h : Cert.Pre_finite_inputs.fn (F := Ideal) A0 A1 A2 A3 A4 A5 A6 A7 A8 A9 A10 = fun _ => 1#1) :
    IsReal A0 ∧ IsReal A1 ∧ IsReal A2 ∧ IsReal A3 ∧ IsReal A4 ∧ IsReal A5 ∧ IsReal A6 ∧ IsReal A7 ∧ IsReal A8
      ∧ IsReal A9 ∧ IsReal A10 := by
  -- the predicate at its one index is a conjunction of eleven "all entries finite" bits; split it from the right
  have h0 := congrFun h ValueIdx.ix0
  dsimp only [fn, fn_part1, fn_part2, fn_part3] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all A0 _ _ _ e0, isReal_of_all A1 _ _ _ e1, isReal_of_all A2 _ _ _ e2,
    isReal_of_all A3 _ _ _ e3, isReal_of_all A4 _ _ _ e4, isReal_of_all A5 _ _ _ e5,
    isReal_of_all A6 _ _ _ e6, isReal_of_all A7 _ _ _ e7, isReal_of_all A8 _ _ _ e8,
    isReal_of_all A9 _ _ _ e9, isReal_of_all A10 _ _ _ e10⟩

end Cert.Finite

end
-- ==== Proof.Bridge.lean ====
/-
  The bridge between the two programs' results.

  The reference's result at entry (b, o) is the whole-Kronecker arrangement of row b and the factor arrays;
  the kernel's result array is the mode-by-mode arrangement of the same data. When every entry of every
  input is a real number the two arrangements agree, so the two result arrays are one array.
-/
import proofs.«179672_j26113401160148_1_alg».proof.Proof.KernelArray
import proofs.«179672_j26113401160148_1_alg».proof.Proof.RefRow
import proofs.«179672_j26113401160148_1_alg».proof.Proof.TuckerAlgebra
import proofs.«179672_j26113401160148_1_alg».proof.Proof.Finite

noncomputable section

open scoped BigOperators

namespace Cert.Bridge

open Idealize.ShloMosaic Idealize.ShloMosaic.ValueIdx Cert.Tucker Cert.Finite Cert.KernelIdeal Cert.KernelIdeal.Arr

/-- Row by row: on real-valued arrays the reference's arrangement is the kernel's. -/
theorem row_eq (A0 : S4096x1024.Idx → EReal) (A1 : S1024.Idx → EReal) (A2 A3 A4 : S1024x32.Idx → EReal)
    (A5 : S1x32x1024.Idx → EReal) (A6 : S2x32x1024.Idx → EReal) (A7 : S3x32x1024.Idx → EReal)
    (A8 : S32x32.Idx → EReal) (A9 : S32x1024.Idx → EReal) (A10 : S32x32768.Idx → EReal)
    (h : IsReal A0 ∧ IsReal A1 ∧ IsReal A2 ∧ IsReal A3 ∧ IsReal A4 ∧ IsReal A5 ∧ IsReal A6 ∧ IsReal A7 ∧ IsReal A8
      ∧ IsReal A9 ∧ IsReal A10) (b : Fin 4096) (o : Fin 1024) :
    refRow (fun i => A0 (ix2 b i)) (fun q => A1 (ix1 q))
        (fun q r => A2 (ix2 q r)) (fun q r => A3 (ix2 q r)) (fun q r => A4 (ix2 q r))
        (fun a i => A5 (ix3 (0 : Fin 1) a i))
        (fun a i => A6 (ix3 (0 : Fin 2) a i)) (fun a i => A6 (ix3 (1 : Fin 2) a i))
        (fun a i => A7 (ix3 (0 : Fin 3) a i)) (fun a i => A7 (ix3 (1 : Fin 3) a i)) (fun a i => A7 (ix3 (2 : Fin 3) a i))
        (fun r a => A8 (ix2 r a)) (fun r k => A9 (ix2 r k)) (fun r K => A10 (ix2 r K)) o
      = rowG A0 A1 A2 A3 A4 A5 A6 A7 A8 A9 A10 b o := by
  obtain ⟨⟨x0, rfl⟩, ⟨x1, rfl⟩, ⟨x2, rfl⟩, ⟨x3, rfl⟩, ⟨x4, rfl⟩, ⟨x5, rfl⟩, ⟨x6, rfl⟩, ⟨x7, rfl⟩, ⟨x8, rfl⟩, ⟨x9, rfl⟩, ⟨x10, rfl⟩⟩ := h
  exact (kerRow_eq_refRow (fun i => x0 (ix2 b i)) (fun q => x1 (ix1 q))
    (fun q r => x2 (ix2 q r)) (fun q r => x3 (ix2 q r)) (fun q r => x4 (ix2 q r))
    (fun a i => x5 (ix3 (0 : Fin 1) a i))
    (fun a i => x6 (ix3 (0 : Fin 2) a i)) (fun a i => x6 (ix3 (1 : Fin 2) a i))
    (fun a i => x7 (ix3 (0 : Fin 3) a i)) (fun a i => x7 (ix3 (1 : Fin 3) a i)) (fun a i => x7 (ix3 (2 : Fin 3) a i))
    (fun r a => x8 (ix2 r a)) (fun r k => x9 (ix2 r k)) (fun r K => x10 (ix2 r K)) o).symm

/-- The reference's last stage, on real-valued arrays, is the kernel's result array. -/
theorem result_eq (A0 : S4096x1024.Idx → EReal) (A1 : S1024.Idx → EReal) (A2 A3 A4 : S1024x32.Idx → EReal)
    (A5 : S1x32x1024.Idx → EReal) (A6 : S2x32x1024.Idx → EReal) (A7 : S3x32x1024.Idx → EReal)
    (A8 : S32x32.Idx → EReal) (A9 : S32x1024.Idx → EReal) (A10 : S32x32768.Idx → EReal)
    (h : IsReal A0 ∧ IsReal A1 ∧ IsReal A2 ∧ IsReal A3 ∧ IsReal A4 ∧ IsReal A5 ∧ IsReal A6 ∧ IsReal A7 ∧ IsReal A8
      ∧ IsReal A9 ∧ IsReal A10) :
    Cert.ReferenceIdeal.Read.val_main_v44 (F := Ideal) A0 A1 A2 A3 A4 A5 A6 A7 A8 A9 A10
      = arrG A0 A1 A2 A3 A4 A5 A6 A7 A8 A9 A10 := by
  funext i
  obtain ⟨b, o, rfl⟩ : ∃ (b : Fin 4096) (o : Fin 1024), i = ix2 b o := ⟨i 0, i 1, eq_ix2 i⟩
  rw [Cert.ReferenceIdeal.RefValue.val_apply]
  exact row_eq A0 A1 A2 A3 A4 A5 A6 A7 A8 A9 A10 h b o

end Cert.Bridge

end
-- ==== Proof.lean ====
/-
  The certificate of the Tucker–Taylor kernel against its reference.

  Both programs compute, for each of 4096 input rows x and each of 1024 output columns o,
      c o + Σ_r O0 o r · T0 r + Σ_r O1 o r · T1 r + Σ_r O2 o r · T2 r,
  where T_i contracts the order-i core with the Kronecker product of i + 1 projections of x on factor
  matrices. The reference forms each Kronecker product whole (32, 1024 and 32768 entries) and contracts it in
  one product; the kernel, on blocks of 256 rows, contracts order 2 mode by mode: the pair (a1, a0) first,
  against the core reshaped to 1024 × 1024, then a2 by a weighted lane sum. Over the extended reals a product
  does not distribute over a sum at the infinities, so the two arrangements are compared on the reals: the
  precondition makes every input entry real, every intermediate value is then a real, and the real identity
  is commutativity, distributivity and the bijection (a2, a1·32 + a0) ↦ a2·1024 + a1·32 + a0.
  The changes of float format in the kernel (to bf16 before each matrix product) are the identity at the
  exact instance, and the idealization rewrote nothing, so the third claim is trivial.

  Modules: TuckerSpec (the two arrangements), TuckerAlgebra (they agree on reals), KernelOps / PayProj /
  PayLow / PayHigh / KernelBlock (the kernel body at an element), KernelArray (the kernel's result array),
  RefRow (the reference's result at an element), Finite (the precondition read as "every entry is real"),
  Bridge (the two result arrays are one). The three frames are the generated ones; the reference's is its
  generated run with the result dropped.
-/
import proofs.«179672_j26113401160148_1_alg».proof.Defs
import proofs.«179672_j26113401160148_1_alg».proof.Proof.Gen.Kernel
import proofs.«179672_j26113401160148_1_alg».proof.Proof.Gen.Kernel.Frame
import proofs.«179672_j26113401160148_1_alg».proof.Proof.Gen.KernelIdeal
import proofs.«179672_j26113401160148_1_alg».proof.Proof.Gen.KernelIdeal.Frame
import proofs.«179672_j26113401160148_1_alg».proof.Proof.Gen.KernelIdeal.Value
import proofs.«179672_j26113401160148_1_alg».proof.Proof.Gen.ReferenceIdeal
import proofs.«179672_j26113401160148_1_alg».proof.Proof.Gen.ReferenceIdeal.Run
import proofs.«179672_j26113401160148_1_alg».proof.Proof.Gen.ReferenceIdeal.Read
import proofs.«179672_j26113401160148_1_alg».proof.Proof.Gen.Pre_finite_inputs
import proofs.«179672_j26113401160148_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read at the exact instance. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eleven inputs, all finite, the kernel ends with its result array at the
    mode-by-mode arrangement of the inputs and the reference with its result at the whole-Kronecker one, which
    on real inputs is the same array. -/
theorem algebraic : Cert.algebraic_KernelIdeal_ReferenceIdeal := by
  intro m ρ m' ρ' hpre hagree
  refine ⟨fun c => Cert.KernelIdeal.Arr.arrG (Cert.KernelIdeal.Arr.a0 m c) (Cert.KernelIdeal.Arr.a1 m c) (Cert.KernelIdeal.Arr.a2 m c)
    (Cert.KernelIdeal.Arr.a3 m c) (Cert.KernelIdeal.Arr.a4 m c) (Cert.KernelIdeal.Arr.a5 m c) (Cert.KernelIdeal.Arr.a6 m c)
    (Cert.KernelIdeal.Arr.a7 m c) (Cert.KernelIdeal.Arr.a8 m c) (Cert.KernelIdeal.Arr.a9 m c) (Cert.KernelIdeal.Arr.a10 m c),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [h0, h1, h2, h3, h4, h5, h6, h7, h8, h9, h10]
  exact (Cert.ReferenceIdeal.Read.val_main_v44_eq (F := Ideal) (Cert.KernelIdeal.Arr.a0 m c) (Cert.KernelIdeal.Arr.a1 m c)
      (Cert.KernelIdeal.Arr.a2 m c) (Cert.KernelIdeal.Arr.a3 m c) (Cert.KernelIdeal.Arr.a4 m c) (Cert.KernelIdeal.Arr.a5 m c)
      (Cert.KernelIdeal.Arr.a6 m c) (Cert.KernelIdeal.Arr.a7 m c) (Cert.KernelIdeal.Arr.a8 m c) (Cert.KernelIdeal.Arr.a9 m c)
      (Cert.KernelIdeal.Arr.a10 m c)).trans
    (Cert.Bridge.result_eq _ _ _ _ _ _ _ _ _ _ _ (Cert.Finite.real_of_fn _ _ _ _ _ _ _ _ _ _ _ (hpre c)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
